-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 21
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S1024x1024, .bf16⟩
  | .hbm, ⟨20, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .f32⟩
  | .local _ .vmem, ⟨24, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v14 : BitVec 1 := Scalar.cmpi .eq arg0 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  transposes_S1024x1024_p1_0_S1024x1024 : S1024x1024.Transposes [1, 0] S1024x1024
  packedbf16_S1024x1024_S1024x1024_0_0 : (Rect.unit (s := S1024x1024) ![0, 0] S1024x1024.size inb_S1024x1024_S1024x1024_0_0).PackedRows (EltTy.packing .bf16)
  dot_S512x1024_S1024x1024_S512x1024_1_0_0_1_n_n_wf : DotDims.WF S512x1024 S1024x1024 S512x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x1024.size a
  hwx2_2 : ∀ i : grid2.Coords, EltTy.bits .f32 = 32 ∨ (Rect.block (s := S8192x1024) S1024x1024.size (cc2_transform_2 i) (hinb2_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v9_1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1024x1024.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v9_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1024x8192 : Shape := ⟨2, ![1024, 8192]⟩
abbrev S8192x8192 : Shape := ⟨2, ![8192, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S1024x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S_, .f32⟩
  | .hbm, ⟨24, _⟩ => ⟨S1024x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.Frame.Kernel.R0.lean ====
import proofs.«131325_j79113297592362_1_alg».proof.Proof.Gen.Kernel.Launch
import proofs.«131325_j79113297592362_1_alg».proof.Proof.Gen.Kernel.Skeleton
import proofs.«131325_j79113297592362_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The projection region: one row block of the activations against three whole weight matrices

At grid point `t` the body sees row block `t` of the activations (512 rows of the 8192), the three weight
matrices and the three bias rows whole, and leaves in each of its three output buffers the rounded value of
`block · weight + bias`. Everything here is stated at a parameter `V`, the contents of the core's buffers when
the region is entered. -/

/-! ## The windows' blocks -/

/-- What window `w` shows of its array at point `t`: the array as the region finds it, read through the window's
    block rectangle there. For the activations and the outputs that is rows `512·t … 512·t + 511`; for a weight
    matrix or a bias row it is the whole array at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's staging buffer holds the window's block at every point, whether or not the block was copied in at
that point. The activations' block is copied in at every point. A weight matrix or a bias row is copied in at the
first point only: at a later point its block index has not moved, the body has left the buffer as it was, so the
buffer still holds the first point's block, which is this point's. The statements take any proof data with the
region-entry arrays whose body leaves the input's block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Every load and store of the body goes through the whole of a staging buffer: the full rectangle of a
`512 × 1024` block, of a `1024 × 1024` matrix, of a `1 × 1024` row. -/

abbrev rBlock : Rect S512x1024 := Rect.unit (s := S512x1024) ![0, 0] S512x1024.size inb_S512x1024_S512x1024_0_0
abbrev rMat : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0

/-! ## What the body leaves in each output buffer

Each output buffer is stored into once, through its full rectangle, so what it holds afterwards is that one
store's payload: the projection of the activations' block `x` by the weight matrix `w`, plus the bias row `b`. -/

/-- Output window 7's buffer after the body, from the activations' block, its weight matrix and its bias row. -/
def out0_7 (x : Vec F S512x1024 .f32) (w : Vec F S1024x1024 .bf16) (b : Vec F S1x1024 .f32) : Vec F S512x1024 .bf16 :=
  View.canon [⟨rBlock, k0_pay2 (View.ld x rBlock) (View.ld w rMat) (View.ld b rRow)⟩]

/-- Output window 8's buffer after the body, from the activations' block, its weight matrix and its bias row. -/
def out0_8 (x : Vec F S512x1024 .f32) (w : Vec F S1024x1024 .bf16) (b : Vec F S1x1024 .f32) : Vec F S512x1024 .bf16 :=
  View.canon [⟨rBlock, k0_pay3 (View.ld x rBlock) (View.ld w rMat) (View.ld b rRow)⟩]

/-- Output window 9's buffer after the body, from the activations' block, its weight matrix and its bias row. -/
def out0_9 (x : Vec F S512x1024 .f32) (w : Vec F S1024x1024 .bf16) (b : Vec F S1x1024 .f32) : Vec F S512x1024 .bf16 :=
  View.canon [⟨rBlock, k0_pay4 (View.ld x rBlock) (View.ld w rMat) (View.ld b rRow)⟩]

/-- A single store through the full rectangle covers the output buffer. -/
theorem cover0_out (p0 : Vec F S512x1024 .bf16) (y : S512x1024.Idx) :
    ∃ pc ∈ ([⟨rBlock, p0⟩] : List (View.Piece (Elt F) S512x1024 .bf16)), y ∈ pc.1.set :=
  View.cover_of_tiled [⟨rBlock, p0⟩] S512x1024.size (by rfl) y

/-! ## The body's triple -/

set_option maxHeartbeats 4000000 in
/-- The body, run on whole staging buffers — the seven inputs' reading `x0 … x6`, the three outputs' holding
    anything — ends with the inputs' as they were and each output's at the projection above. The body also loads
    each output buffer just before storing into it; the loaded value is not used, so the buffer's old contents do
    not matter. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S512x1024 .f32) (x1 : Vec F S1024x1024 .bf16) (x2 : Vec F S1024x1024 .bf16) (x3 : Vec F S1024x1024 .bf16) (x4 : Vec F S1x1024 .f32) (x5 : Vec F S1x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x4) ∗ owns (c : Thread nD τ) arg9 fullShare (out0_8 x0 x2 x5) ∗ owns (c : Thread nD τ) arg10 fullShare (out0_9 x0 x3 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_out _)
  isplitl [H8]
  · iexists _; isplitr
    swap; · iexact H8
    ipureintro
    exact View.read_writes_eq_canon _ _ _ (cover0_out _)
  iexists _; isplitr
  swap; · iexact H9
  ipureintro
  exact View.read_writes_eq_canon _ _ _ (cover0_out _)

/-! ## The region's proof data -/

/-- The proof data of the projection region on core `c`: the arrays as the region finds them; after the body at
    point `t` each input's buffer still at its block and each output's at the projection of the activations' block
    there; the invariant that of a body touching nothing but its windows (the scoped rest and the generator
    register pass through); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t)
    | ⟨8, _⟩ => out0_8 (iblk0 V c 0 t) (iblk0 V c 2 t) (iblk0 V c 5 t)
    | ⟨9, _⟩ => out0_9 (iblk0 V c 0 t) (iblk0 V c 3 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 4 t) := by dsimp only [dat0]
theorem after0_8 (c : Dev nD) (t : Fin cfg0.N) : (dat0 V c).after 8 t = out0_8 (iblk0 V c 0 t) (iblk0 V c 2 t) (iblk0 V c 5 t) := by dsimp only [dat0]
theorem after0_9 (c : Dev nD) (t : Fin cfg0.N) : (dat0 V c).after 9 t = out0_9 (iblk0 V c 0 t) (iblk0 V c 3 t) (iblk0 V c 6 t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Frame.Kernel.R1.lean ====
import proofs.«131325_j79113297592362_1_alg».proof.Proof.Gen.Kernel.Launch
import proofs.«131325_j79113297592362_1_alg».proof.Proof.Gen.Kernel.Skeleton
import proofs.«131325_j79113297592362_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the K-transpose-times-V reduction over eight row blocks

The region walks the 8192 rows of K and V in eight blocks of 1024. It keeps a 1024×1024 f32
accumulator in a scratch buffer of its own: zeroed at the first point, then at every point
increased by (K block)ᵀ · (V block); at the last point the accumulator times 1/32, rounded to
bf16, is stored into the output block, which is written back once. -/

/-! ## The windows' blocks -/

/-- Window `w`'s block at point `t`, read off its array as the region finds it (`V`): for K and V
    the 1024 rows starting at row 1024·t, for the output the whole 1024×1024 array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The K window's current staging buffer holds its block at every point, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the V window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditionals of the body, as conditions on the grid coordinate -/

/-- The first conditional of the body tests "the grid coordinate is 0" (the scalar chain of the
    skeleton, substituted): under it the accumulator is reset to zeros. -/
abbrev cond1_0 (i : grid1.Coords) : Prop := (Scalar.cmpi .ne (Scalar.extui (Scalar.cmpi .eq (BitVec.ofNat 32 (i 0).val) 0#32)) 0#32) = 1#1
/-- It holds exactly at point 0 of the eight. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional tests "the grid coordinate is 7": under it the scaled accumulator is
    stored into the output block. -/
abbrev cond1_1 (i : grid1.Coords) : Prop := k1_cond2 i = 1#1
/-- It holds exactly at point 7, the last. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The K and V windows are read at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- Before the last point the output window is idle: the body stores nothing into it, -/
theorem idleAt1_2 : ∀ t : Fin cfg1.N, ¬cond1_1 (grid1.coords t) → cfg1.idle 2 (grid1.coords t) = true := by decide +kernel
/-- and the pipeline does not write its block back. -/
theorem noFlush1_2 : ∀ t : Fin cfg1.N, ¬cond1_1 (grid1.coords t) → (cfg1.win 2).flush t = false := by decide +kernel
/-- At the last point it is live. -/
theorem liveAt1_2 : ∀ t : Fin cfg1.N, cond1_1 (grid1.coords t) → cfg1.idle 2 (grid1.coords t) = false := by decide +kernel

/-! ## The body's accesses: every load and store is of a whole 1024×1024 buffer -/

/-- The whole-buffer rectangle: offsets zero, the buffer's own extents. -/
abbrev rW : Rect S1024x1024 := Rect.unit (s := S1024x1024) ![0, 0] S1024x1024.size inb_S1024x1024_S1024x1024_0_0

theorem hz2 : (![0, 0] : Fin 2 → Nat) = fun _ => 0 := funext fun a => by fin_cases a <;> rfl

/-- A whole-buffer load reads the contents. -/
theorem readAt_rW {e : EltTy} (v : View sig .tc .vmem S1024x1024 e) (f : v.ty.Contents (Elt F)) :
    v.readAt (Elt F) rW.toLoadRect f = v.read (Elt F) f :=
  (View.readAt_eq_ld v f rW).trans (View.ld_unit_zero (S := S1024x1024) hz2 inb_S1024x1024_S1024x1024_0_0 _)

/-- After a store through the whole-shape rectangle at zero offsets, made last, the buffer reads as
    that store's payload whatever was stored before: every index is under it. -/
theorem read_writes_cons_unit_zero {Val : EltTy → Type} {S : Shape} {e : EltTy} {sg : RefSig} {κ : Kind} {sp : Space}
    (v : View sg κ sp S e) (f : v.ty.Contents Val) {off : Fin S.rank → Nat} (h : off = fun _ => 0)
    (inb : ∀ a, off a + S.size a ≤ S.size a) (P : S.Idx → Val e) (L : List (View.Piece Val S e)) :
    v.read Val (v.writes Val f ((⟨Rect.unit off S.size inb, P⟩ : View.Piece Val S e) :: L)) = P := by
  subst h; funext y
  have e := View.read_writes_cons_emb (v := v) (f := f) (Rect.whole S) P L y
  rw [Rect.emb_whole_apply] at e
  exact e

theorem read_writes_rW {e : EltTy} (v : View sig .tc .vmem S1024x1024 e) (f : v.ty.Contents (Elt F))
    (P : S1024x1024.Idx → Elt F e) (L : List (View.Piece (Elt F) S1024x1024 e)) :
    v.read (Elt F) (v.writes (Elt F) f ((⟨rW, P⟩ : View.Piece (Elt F) S1024x1024 e) :: L)) = P :=
  read_writes_cons_unit_zero v f hz2 inb_S1024x1024_S1024x1024_0_0 P L

/-- A whole-buffer load right after ONE whole-buffer store reads the payload. -/
theorem readCov_rW {e : EltTy} (v : View sig .tc .vmem S1024x1024 e) (P : S1024x1024.Idx → Elt F e) :
    v.readCov [(⟨rW, P⟩ : View.Piece (Elt F) S1024x1024 e)] rW.toLoadRect = P :=
  View.readCov_unit_zero (S := S1024x1024) v hz2 inb_S1024x1024_S1024x1024_0_0 P
/-! ## The body's triple, case by case -/

set_option maxHeartbeats 1000000 in
/-- FIRST POINT (reset taken, final store not taken). On whole buffers — the K block at `x0`, the V
    block at `x1`, the output's buffer at `xi2` (not touched), the accumulator at anything — the body
    leaves the accumulator at zeros plus the block product, `k1_pay2 x0 x1 k1_pay1`, everything else
    as it was. -/
theorem run_first (c : Dev nD) (E : Set ℕ) (i : grid1.Coords)
    (arg1 : Memref sig .tc .vmem S1024x1024 .bf16) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .f32) (harg4 : arg4.IsWhole)
    (hc0 : cond1_0 i) (hc1 : ¬cond1_1 i)
    (x0 x1 xi2 : Vec F S1024x1024 .bf16) (K : PUnit → sProp 𝕄) :
    iprop(owns (c : Thread nD τ) arg1 fullShare x0 ∗ owns (c : Thread nD τ) arg2 fullShare x1
        ∗ owns (c : Thread nD τ) arg3 fullShare xi2 ∗ (∃ d, owns (c : Thread nD τ) arg4 fullShare d)
        ∗ (iprop(owns (c : Thread nD τ) arg1 fullShare x0 ∗ owns (c : Thread nD τ) arg2 fullShare x1
            ∗ owns (c : Thread nD τ) arg3 fullShare xi2
            ∗ owns (c : Thread nD τ) arg4 fullShare (k1_pay2 x0 x1 (k1_pay1 (F := F)))) -∗ K ⟨⟩))
      ⊢ wp frame (wpE (defs₀ (F := F)) Variants.none c none) E (cc1__kv_reduce_kernel i arg1 harg1 arg2 harg2 arg3 harg3 arg4 harg4) K := by
  simp only [cc1__kv_reduce_kernel_eq_skeleton]; unfold cc1__kv_reduce_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_rW, readCov_rW]
  rw [readAt_rW, readAt_rW]

set_option maxHeartbeats 1000000 in
/-- A MIDDLE POINT (neither conditional taken). The accumulator comes in at `xs`, what the point
    before left, and goes out at `xs` plus the block product, `k1_pay2 x0 x1 xs`; the output's buffer
    is not touched. -/
theorem run_middle (c : Dev nD) (E : Set ℕ) (i : grid1.Coords)
    (arg1 : Memref sig .tc .vmem S1024x1024 .bf16) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .f32) (harg4 : arg4.IsWhole)
    (hc0 : ¬cond1_0 i) (hc1 : ¬cond1_1 i)
    (x0 x1 xi2 : Vec F S1024x1024 .bf16) (xs : Vec F S1024x1024 .f32) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xs
        ∗ (iprop(owns (c : Thread nD τ) arg1 fullShare x0 ∗ owns (c : Thread nD τ) arg2 fullShare x1
            ∗ owns (c : Thread nD τ) arg3 fullShare xi2
            ∗ owns (c : Thread nD τ) arg4 fullShare (k1_pay2 x0 x1 xs)) -∗ K ⟨⟩))
      ⊢ wp frame (wpE (defs₀ (F := F)) Variants.none c none) E (cc1__kv_reduce_kernel i arg1 harg1 arg2 harg2 arg3 harg3 arg4 harg4) K := by
  simp only [cc1__kv_reduce_kernel_eq_skeleton]; unfold cc1__kv_reduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [read_writes_rW]
  rw [readAt_rW, readAt_rW, readAt_rW]

set_option maxHeartbeats 1000000 in
/-- THE LAST POINT (reset not taken, final store taken). The accumulator goes from `xs` to
    `k1_pay2 x0 x1 xs` as at a middle point, and the output's buffer, at anything before, is left at
    the scaled and rounded accumulator `k1_pay3 (k1_pay2 x0 x1 xs)`. -/
theorem run_last (c : Dev nD) (E : Set ℕ) (i : grid1.Coords)
    (arg1 : Memref sig .tc .vmem S1024x1024 .bf16) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .f32) (harg4 : arg4.IsWhole)
    (hc0 : ¬cond1_0 i) (hc1 : cond1_1 i)
    (x0 x1 : Vec F S1024x1024 .bf16) (xs : Vec F S1024x1024 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k1_pay3 (k1_pay2 x0 x1 xs))
            ∗ owns (c : Thread nD τ) arg4 fullShare (k1_pay2 x0 x1 xs)) -∗ K ⟨⟩))
      ⊢ wp frame (wpE (defs₀ (F := F)) Variants.none c none) E (cc1__kv_reduce_kernel i arg1 harg1 arg2 harg2 arg3 harg3 arg4 harg4) K := by
  simp only [cc1__kv_reduce_kernel_eq_skeleton]; unfold cc1__kv_reduce_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_rW, readCov_rW]
    rw [readAt_rW, readAt_rW, readAt_rW]
  iexists _; isplitr
  swap; · iexact HS
  ipureintro
  sl_unfold_run_names
  rw [read_writes_rW]
  rw [readAt_rW, readAt_rW, readAt_rW]

/-! ## The accumulator, point by point -/

/-- What the scratch accumulator holds after the body at position `n`: after the first point, zeros
    plus the first blocks' product; after each later point, what the point before left plus that
    point's product (`k1_pay2` is "accumulator + (K block)ᵀ · (V block)"). -/
def accAt1 (c : Dev nD) : (n : ℕ) → n < cfg1.N → Vec F S1024x1024 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩) (accAt1 c n (Nat.lt_of_succ_lt h))

/-- At the first point the accumulator starts from zeros. -/
theorem accAt1_first (c : Dev nD) (t : Fin cfg1.N) (h0 : t.val = 0) :
    accAt1 V c t.val t.isLt = k1_pay2 (iblk1 V c 0 t) (iblk1 V c 1 t) (k1_pay1 (F := F)) := by
  obtain ⟨n, hn⟩ := t
  cases n with
  | zero => rfl
  | succ n => exact absurd h0 (Nat.succ_ne_zero n)

/-- At a later point it starts from what the point before left. -/
theorem accAt1_next (c : Dev nD) (t : Fin cfg1.N) (h0 : t.val ≠ 0) :
    accAt1 V c t.val t.isLt
      = k1_pay2 (iblk1 V c 0 t) (iblk1 V c 1 t) (accAt1 V c (t.val - 1) (Nat.lt_of_le_of_lt (Nat.sub_le _ _) t.isLt)) := by
  obtain ⟨n, hn⟩ := t
  cases n with
  | zero => exact absurd rfl h0
  | succ n => rfl

/-! ## The region's invariant: the accumulator between points -/

/-- The accumulator: a whole scoped buffer of the kernel's own, passed beside the windows. -/
abbrev scM1 : Memref sig .tc .vmem S1024x1024 .f32 := Memref.whole cc1_scratch0

/-- The core's other scoped buffers that are no staging buffer of this region (the other regions'
    staging buffers), each at some contents: the body never touches them. -/
abbrev scRest1 (c : Dev nD) : sProp 𝕄 :=
  Pipeline.scopedRestBut (Ix := Unit) (Name := ℕ) (U := UR sig nD τ) (Lvl := ℕ) (Val := Elt F) spec1 c [cc1_scratch0]

/-- What the launch hands the region, with the accumulator split off as a memref owned at some
    contents. -/
theorem PhiA1_eq (c : Dev nD) :
    (Pipeline.ΦA spec1 c : sProp 𝕄)
      = iprop((iprop(∃ d, owns (c : Thread nD τ) scM1 fullShare d) ∗ scRest1 (F := F) c) ∗ (∃ r, prngReg c r)) := by
  unfold Pipeline.ΦA scRest1
  rw [Pipeline.scopedRest_split_of_list spec1 c [cc1_scratch0] (by decide) (by decide)]
  simp only [scM1, owns_whole, bigSepL_singleton]; try rfl

/-- The invariant before position `n`: before the first point what the launch hands over (the
    accumulator at anything); afterwards the accumulator at what the point before left. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ scRest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (accAt1 V c n hn) ∗ scRest1 (F := F) c) ∗ (∃ r, prngReg c r)) := rfl

theorem PhiS1_pos (c : Dev nD) (n : ℕ) (h : n ≤ cfg1.N) (hz : n ≠ 0) :
    PhiS1 V c n h = iprop((owns (c : Thread nD τ) scM1 fullShare (accAt1 V c (n - 1) (by omega)) ∗ scRest1 (F := F) c) ∗ (∃ r, prngReg c r)) := by
  cases n with
  | zero => exact absurd rfl hz
  | succ n => rfl

/-! ## The pipeline's proof data -/

/-- The proof data of this region on core `c`: the arrays as the region finds them; after the body
    the K and V buffers at their blocks, the output's buffer at the scaled, rounded accumulator
    (`k1_pay3`: times 1/32, to bf16) — consulted at the last point only, where the body stores it;
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
/-- The output's buffer after the body: the accumulator after this point, times 1/32, rounded. -/
theorem after1_2 (c : Dev nD) (t : Fin cfg1.N) : (dat1 V c).after 2 t = k1_pay3 (accAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The K and V buffers hold their blocks; the point's position says which
    of the three cases it is in; the invariant hands the body the accumulator (at anything at the
    first point, at what the point before left afterwards) and takes it back at this point's
    contents; before the last point the output's buffer goes through untouched, at the last it is
    left at the scaled accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 8 = 7
  · -- the last point
    have h0 : ¬t.val % 8 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [accAt1_next V c t hz]
    rw [PhiS1_castSucc V c t, PhiS1_pos V c _ _ hz]
    iintro ⟨⟨⟨HS, HR⟩, Hg⟩, Ho, ⟨%d0, H0⟩, ⟨%d1, H1⟩, ⟨%d2, H2⟩⟩
    iapply (run_last c Set.univ (grid1.coords t) _ _ _ _ _ _ _ _ (fun h => h0 ((hcond1_0 t).mp h)) ((hcond1_1 t).mpr h1) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 8 = 0
    · -- the first point
      have hz : t.val = 0 := by omega
      rw [accAt1_first V c t hz]
      rw [PhiS1_castSucc V c t, PhiS1_zero V c _ _ hz, PhiA1_eq]
      iintro ⟨⟨⟨HS, HR⟩, Hg⟩, Ho, ⟨%d0, H0⟩, ⟨%d1, H1⟩, ⟨%d2, H2⟩⟩
      iapply (run_first c Set.univ (grid1.coords t) _ _ _ _ _ _ _ _ ((hcond1_0 t).mpr h0) (fun h => h1 ((hcond1_1 t).mp h)) (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · -- a middle point
      have hz : t.val ≠ 0 := by omega
      rw [accAt1_next V c t hz]
      rw [PhiS1_castSucc V c t, PhiS1_pos V c _ _ hz]
      iintro ⟨⟨⟨HS, HR⟩, Hg⟩, Ho, ⟨%d0, H0⟩, ⟨%d1, H1⟩, ⟨%d2, H2⟩⟩
      iapply (run_middle c Set.univ (grid1.coords t) _ _ _ _ _ _ _ _ (fun h => h0 ((hcond1_0 t).mp h)) (fun h => h1 ((hcond1_1 t).mp h)) (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Cert.Kernel.Hand

end
-- ==== Proof.Frame.Kernel.R2.lean ====
import proofs.«131325_j79113297592362_1_alg».proof.Proof.Gen.Kernel.Launch
import proofs.«131325_j79113297592362_1_alg».proof.Proof.Gen.Kernel.Skeleton
import proofs.«131325_j79113297592362_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The last stage of the kernel: the output projection  O = Q · T

The third pipelined call walks the 8192 rows of Q in eight blocks of 1024 rows. At every grid point it multiplies
the current row block of Q (1024 × 1024) by the whole matrix T (1024 × 1024, the same at every point) and writes the
product as the matching row block of the output. Nothing is carried from one point to the next. Everything below is
stated at the contents `V` the buffers hold when this stage is entered. -/

/-! ## The windows' blocks -/

/-- The block window `w` shows at grid point `t`, cut out of the window's array as the stage finds it: for
    window 0 the `t`-th band of 1024 rows of Q, for window 1 all of T, for window 2 the `t`-th band of the output. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row band of Q is in its staging buffer at every point (it is fetched at every point; the statement does not
    even need that), for any proof data over `V`'s array whose body leaves the band untouched. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- T is in its staging buffer at every point although it is brought in only once, at the first point: its block
    index never moves, so a buffer the body leaves alone still shows the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- Every load and the one store of the body take a whole 1024 × 1024 buffer. -/
abbrev r2_0 : Rect S1024x1024 := Rect.unit (s := S1024x1024) ![0, 0] S1024x1024.size inb_S1024x1024_S1024x1024_0_0

/-! ## What the body leaves in the output window's buffer -/

/-- The output buffer after the body, from the two input blocks: the product of the Q band `x0` and T `x1`,
    stored once over the whole buffer. -/
def out2_2 (x0 : Vec F S1024x1024 .bf16) (x1 : Vec F S1024x1024 .bf16) : Vec F S1024x1024 .f32 :=
  View.canon [⟨r2_0, k2_pay1 (View.ld x0 r2_0) (View.ld x1 r2_0)⟩]

/-- The single store fills the buffer. -/
theorem cover2_2 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
/-- The body on whole staging buffers — the Q band's at `x0`, T's at `x1`, the output's at anything — ends with the
    inputs as they were and the output buffer at their product `out2_2 x0 x1`. (It also loads the output buffer
    before storing; the loaded value is not used.) -/
theorem sound_kernel2 (c : Dev nD) (E : Set ℕ) (i : grid2.Coords) (arg1 : Memref sig .tc .vmem S1024x1024 .bf16) (harg1 : arg1.IsWhole)
    (arg2 : Memref sig .tc .vmem S1024x1024 .bf16) (harg2 : arg2.IsWhole) (arg3 : Memref sig .tc .vmem S1024x1024 .f32) (harg3 : arg3.IsWhole)
    (x0 : Vec F S1024x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__out_kernel i arg1 harg1 arg2 harg2 arg3 harg3) K := by
  simp only [cc2__out_kernel_eq_skeleton]; unfold cc2__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The stage's proof data -/

/-- The proof data of this stage on core `c`: the three arrays as the stage finds them (`V`); after the body at
    point `t` the two input buffers still hold their blocks (the Q band of the point, and T) and the output buffer
    holds their product; the invariant is the plain one (the other scoped buffers and the generator register, untouched);
    nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the stage-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, brought in there or earlier. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two input buffers hold the Q band and T, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Frame.Kernel.Run.lean ====
/-
  The whole program's run: nine host operations (each weight matrix transposed, the biases laid out as rows), then
  the three kernel regions one after the other. Between two items every buffer that lives across regions holds
  known contents: after the host operations what they compute from the arguments; after a region its output arrays
  at what its grid points wrote back, block by block, and everything else untouched. Composing the four items,
  every fair execution from any memory with all counters at zero terminates, and in the final memory every such
  buffer holds the last of these contents. In particular no argument array is ever written, and the result array
  is what the third region's write-backs make of it.
-/
import proofs.«131325_j79113297592362_1_alg».proof.Proof.Frame.Kernel.R0
import proofs.«131325_j79113297592362_1_alg».proof.Proof.Frame.Kernel.R1
import proofs.«131325_j79113297592362_1_alg».proof.Proof.Frame.Kernel.R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => (s₀ m ρ).mem ((c : Dev nD), b)
/-- After the host operations: what the first region is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- When region 0 ends: its windows' arrays at what the pipeline leaves (an input as entered, an output with its
    write-backs folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- When region 1 ends: its windows' arrays at what the pipeline leaves (an input as entered, an output with its
    write-backs folded in), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- When region 2 ends: its windows' arrays at what the pipeline leaves (an input as entered, an output with its
    write-backs folded in), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The proof data of the three pipelines, each at its region's entry contents -/

/-- No pipeline has a prefetched table. -/
abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`. -/
abbrev Tₙ (c : Dev nD) : sProp 𝕄 := iprop(StableHlo.held (c : Thread nD τ) (Pipeline.ucRefs τ sig) (W4 m ρ c) ∗ ∃ r, prngReg c r)

/-- The host operations as an item. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R

/-! ## The regions as items -/

/-- The generator register, anything else, and the second region's scoped buffers that no window stages make the
    plain invariant (those buffers and the register), whatever the middle part is. -/
theorem toPlain1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- And the plain invariant gives them back. -/
theorem ofPlain1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- Region 0 over the thread state: entered with every unscoped buffer at the contents the item before left, left with
    its windows' arrays at what the write-backs made of them and every other buffer as entered. The arrays are split
    out of the unscoped buffers at entry and put back at exit; the generator register goes into the region's invariant
    and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents the item before left, left with
    its windows' arrays at what the write-backs made of them and every other buffer as entered. The arrays are split
    out of the unscoped buffers at entry and put back at exit; the generator register goes into the region's invariant
    and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPlain1 c _).trans (hin1 (V2 m ρ) c)
  hout c := by
    rw [Pipeline.ownSems0_none]
    exact (hout1 (V2 m ρ) c).trans (ofPlain1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents the item before left, left with
    its windows' arrays at what the write-backs made of them and every other buffer as entered. The arrays are split
    out of the unscoped buffers at entry and put back at exit; the generator register goes into the region's invariant
    and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four items, and the launch -/

abbrev segs : List (Pipeline.Seg (pcfgs (F := F)) adm (pdats m ρ) () defs₀ 𝒱₀ L lv) :=
  [ .host (hseg0 m ρ), .region (reg0 m ρ), .region (reg1 m ρ), .region (reg2 m ρ) ]
theorem main_run (c : Dev nD) : main (F := F) c = Pipeline.Seg.run (segs m ρ) := (main_chain c).trans (by chain_rfl)

set_option backward.isDefEq.respectTransparency.types false in
/-- From any memory with every counter at zero, every fair execution of the program terminates without a fault, and
    in the final memory every buffer that lives across regions holds the contents the last item leaves (`W4`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the final memory holds -/

/-! No item writes an argument array: the host operations write their own results, a region writes its output
    arrays only, and the first argument is an input window of the first region, which leaves an input as it found it. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg6) := rfl

/-- The result array ends at what the third region's write-backs make of it. -/
theorem W4_result (c : Dev nD) : W4 m ρ c (Proc.devRef .tc main_v11) = (dat2 (V3 m ρ) c).arrAt 2 cfg2.N :=
  W4_arr m ρ c 2

/-- Every fair execution terminates without a fault, the result array ends at the third region's final contents
    and every argument array ends as launched. -/
theorem run_result : θ_run defs (onTc (τ := τ) (main (F := F))) ⟨m, fun _ => 0, ρ⟩ (fun r => ∀ c : Dev nD,
      r.2.mem ((c.tc : Thread nD τ).loc main_v11) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v11 (by decide))).trans (W4_result m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

/-- The frame: every fair execution terminates without a fault and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.Kernel.Hand

end
-- ==== Proof.Frame.KernelIdeal.R0.lean ====
import proofs.«131325_j79113297592362_1_alg».proof.Proof.Gen.KernelIdeal.Launch
import proofs.«131325_j79113297592362_1_alg».proof.Proof.Gen.KernelIdeal.Skeleton
import proofs.«131325_j79113297592362_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The projection region: one row block of the activations against three whole weight matrices

At grid point `t` the body sees row block `t` of the activations (512 rows of the 8192), the three weight
matrices and the three bias rows whole, and leaves in each of its three output buffers the rounded value of
`block · weight + bias`. Everything here is stated at a parameter `V`, the contents of the core's buffers when
the region is entered. -/

/-! ## The windows' blocks -/

/-- What window `w` shows of its array at point `t`: the array as the region finds it, read through the window's
    block rectangle there. For the activations and the outputs that is rows `512·t … 512·t + 511`; for a weight
    matrix or a bias row it is the whole array at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's staging buffer holds the window's block at every point, whether or not the block was copied in at
that point. The activations' block is copied in at every point. A weight matrix or a bias row is copied in at the
first point only: at a later point its block index has not moved, the body has left the buffer as it was, so the
buffer still holds the first point's block, which is this point's. The statements take any proof data with the
region-entry arrays whose body leaves the input's block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Every load and store of the body goes through the whole of a staging buffer: the full rectangle of a
`512 × 1024` block, of a `1024 × 1024` matrix, of a `1 × 1024` row. -/

abbrev rBlock : Rect S512x1024 := Rect.unit (s := S512x1024) ![0, 0] S512x1024.size inb_S512x1024_S512x1024_0_0
abbrev rMat : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0

/-! ## What the body leaves in each output buffer

Each output buffer is stored into once, through its full rectangle, so what it holds afterwards is that one
store's payload: the projection of the activations' block `x` by the weight matrix `w`, plus the bias row `b`. -/

/-- Output window 7's buffer after the body, from the activations' block, its weight matrix and its bias row. -/
def out0_7 (x : Vec F S512x1024 .f32) (w : Vec F S1024x1024 .bf16) (b : Vec F S1x1024 .f32) : Vec F S512x1024 .bf16 :=
  View.canon [⟨rBlock, k0_pay2 (View.ld x rBlock) (View.ld w rMat) (View.ld b rRow)⟩]

/-- Output window 8's buffer after the body, from the activations' block, its weight matrix and its bias row. -/
def out0_8 (x : Vec F S512x1024 .f32) (w : Vec F S1024x1024 .bf16) (b : Vec F S1x1024 .f32) : Vec F S512x1024 .bf16 :=
  View.canon [⟨rBlock, k0_pay3 (View.ld x rBlock) (View.ld w rMat) (View.ld b rRow)⟩]

/-- Output window 9's buffer after the body, from the activations' block, its weight matrix and its bias row. -/
def out0_9 (x : Vec F S512x1024 .f32) (w : Vec F S1024x1024 .bf16) (b : Vec F S1x1024 .f32) : Vec F S512x1024 .bf16 :=
  View.canon [⟨rBlock, k0_pay4 (View.ld x rBlock) (View.ld w rMat) (View.ld b rRow)⟩]

/-- A single store through the full rectangle covers the output buffer. -/
theorem cover0_out (p0 : Vec F S512x1024 .bf16) (y : S512x1024.Idx) :
    ∃ pc ∈ ([⟨rBlock, p0⟩] : List (View.Piece (Elt F) S512x1024 .bf16)), y ∈ pc.1.set :=
  View.cover_of_tiled [⟨rBlock, p0⟩] S512x1024.size (by rfl) y

/-! ## The body's triple -/

set_option maxHeartbeats 4000000 in
/-- The body, run on whole staging buffers — the seven inputs' reading `x0 … x6`, the three outputs' holding
    anything — ends with the inputs' as they were and each output's at the projection above. The body also loads
    each output buffer just before storing into it; the loaded value is not used, so the buffer's old contents do
    not matter. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S512x1024 .f32) (x1 : Vec F S1024x1024 .bf16) (x2 : Vec F S1024x1024 .bf16) (x3 : Vec F S1024x1024 .bf16) (x4 : Vec F S1x1024 .f32) (x5 : Vec F S1x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x4) ∗ owns (c : Thread nD τ) arg9 fullShare (out0_8 x0 x2 x5) ∗ owns (c : Thread nD τ) arg10 fullShare (out0_9 x0 x3 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_out _)
  isplitl [H8]
  · iexists _; isplitr
    swap; · iexact H8
    ipureintro
    exact View.read_writes_eq_canon _ _ _ (cover0_out _)
  iexists _; isplitr
  swap; · iexact H9
  ipureintro
  exact View.read_writes_eq_canon _ _ _ (cover0_out _)

/-! ## The region's proof data -/

/-- The proof data of the projection region on core `c`: the arrays as the region finds them; after the body at
    point `t` each input's buffer still at its block and each output's at the projection of the activations' block
    there; the invariant that of a body touching nothing but its windows (the scoped rest and the generator
    register pass through); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t)
    | ⟨8, _⟩ => out0_8 (iblk0 V c 0 t) (iblk0 V c 2 t) (iblk0 V c 5 t)
    | ⟨9, _⟩ => out0_9 (iblk0 V c 0 t) (iblk0 V c 3 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 4 t) := by dsimp only [dat0]
theorem after0_8 (c : Dev nD) (t : Fin cfg0.N) : (dat0 V c).after 8 t = out0_8 (iblk0 V c 0 t) (iblk0 V c 2 t) (iblk0 V c 5 t) := by dsimp only [dat0]
theorem after0_9 (c : Dev nD) (t : Fin cfg0.N) : (dat0 V c).after 9 t = out0_9 (iblk0 V c 0 t) (iblk0 V c 3 t) (iblk0 V c 6 t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Frame.KernelIdeal.R1.lean ====
import proofs.«131325_j79113297592362_1_alg».proof.Proof.Gen.KernelIdeal.Launch
import proofs.«131325_j79113297592362_1_alg».proof.Proof.Gen.KernelIdeal.Skeleton
import proofs.«131325_j79113297592362_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the K-transpose-times-V reduction over eight row blocks

The region walks the 8192 rows of K and V in eight blocks of 1024. It keeps a 1024×1024 f32
accumulator in a scratch buffer of its own: zeroed at the first point, then at every point
increased by (K block)ᵀ · (V block); at the last point the accumulator times 1/32, rounded to
bf16, is stored into the output block, which is written back once. -/

/-! ## The windows' blocks -/

/-- Window `w`'s block at point `t`, read off its array as the region finds it (`V`): for K and V
    the 1024 rows starting at row 1024·t, for the output the whole 1024×1024 array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The K window's current staging buffer holds its block at every point, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the V window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditionals of the body, as conditions on the grid coordinate -/

/-- The first conditional of the body tests "the grid coordinate is 0" (the scalar chain of the
    skeleton, substituted): under it the accumulator is reset to zeros. -/
abbrev cond1_0 (i : grid1.Coords) : Prop := (Scalar.cmpi .ne (Scalar.extui (Scalar.cmpi .eq (BitVec.ofNat 32 (i 0).val) 0#32)) 0#32) = 1#1
/-- It holds exactly at point 0 of the eight. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional tests "the grid coordinate is 7": under it the scaled accumulator is
    stored into the output block. -/
abbrev cond1_1 (i : grid1.Coords) : Prop := k1_cond2 i = 1#1
/-- It holds exactly at point 7, the last. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The K and V windows are read at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- Before the last point the output window is idle: the body stores nothing into it, -/
theorem idleAt1_2 : ∀ t : Fin cfg1.N, ¬cond1_1 (grid1.coords t) → cfg1.idle 2 (grid1.coords t) = true := by decide +kernel
/-- and the pipeline does not write its block back. -/
theorem noFlush1_2 : ∀ t : Fin cfg1.N, ¬cond1_1 (grid1.coords t) → (cfg1.win 2).flush t = false := by decide +kernel
/-- At the last point it is live. -/
theorem liveAt1_2 : ∀ t : Fin cfg1.N, cond1_1 (grid1.coords t) → cfg1.idle 2 (grid1.coords t) = false := by decide +kernel

/-! ## The body's accesses: every load and store is of a whole 1024×1024 buffer -/

/-- The whole-buffer rectangle: offsets zero, the buffer's own extents. -/
abbrev rW : Rect S1024x1024 := Rect.unit (s := S1024x1024) ![0, 0] S1024x1024.size inb_S1024x1024_S1024x1024_0_0

theorem hz2 : (![0, 0] : Fin 2 → Nat) = fun _ => 0 := funext fun a => by fin_cases a <;> rfl

/-- A whole-buffer load reads the contents. -/
theorem readAt_rW {e : EltTy} (v : View sig .tc .vmem S1024x1024 e) (f : v.ty.Contents (Elt F)) :
    v.readAt (Elt F) rW.toLoadRect f = v.read (Elt F) f :=
  (View.readAt_eq_ld v f rW).trans (View.ld_unit_zero (S := S1024x1024) hz2 inb_S1024x1024_S1024x1024_0_0 _)

/-- After a store through the whole-shape rectangle at zero offsets, made last, the buffer reads as
    that store's payload whatever was stored before: every index is under it. -/
theorem read_writes_cons_unit_zero {Val : EltTy → Type} {S : Shape} {e : EltTy} {sg : RefSig} {κ : Kind} {sp : Space}
    (v : View sg κ sp S e) (f : v.ty.Contents Val) {off : Fin S.rank → Nat} (h : off = fun _ => 0)
    (inb : ∀ a, off a + S.size a ≤ S.size a) (P : S.Idx → Val e) (L : List (View.Piece Val S e)) :
    v.read Val (v.writes Val f ((⟨Rect.unit off S.size inb, P⟩ : View.Piece Val S e) :: L)) = P := by
  subst h; funext y
  have e := View.read_writes_cons_emb (v := v) (f := f) (Rect.whole S) P L y
  rw [Rect.emb_whole_apply] at e
  exact e

theorem read_writes_rW {e : EltTy} (v : View sig .tc .vmem S1024x1024 e) (f : v.ty.Contents (Elt F))
    (P : S1024x1024.Idx → Elt F e) (L : List (View.Piece (Elt F) S1024x1024 e)) :
    v.read (Elt F) (v.writes (Elt F) f ((⟨rW, P⟩ : View.Piece (Elt F) S1024x1024 e) :: L)) = P :=
  read_writes_cons_unit_zero v f hz2 inb_S1024x1024_S1024x1024_0_0 P L

/-- A whole-buffer load right after ONE whole-buffer store reads the payload. -/
theorem readCov_rW {e : EltTy} (v : View sig .tc .vmem S1024x1024 e) (P : S1024x1024.Idx → Elt F e) :
    v.readCov [(⟨rW, P⟩ : View.Piece (Elt F) S1024x1024 e)] rW.toLoadRect = P :=
  View.readCov_unit_zero (S := S1024x1024) v hz2 inb_S1024x1024_S1024x1024_0_0 P
/-! ## The body's triple, case by case -/

set_option maxHeartbeats 1000000 in
/-- FIRST POINT (reset taken, final store not taken). On whole buffers — the K block at `x0`, the V
    block at `x1`, the output's buffer at `xi2` (not touched), the accumulator at anything — the body
    leaves the accumulator at zeros plus the block product, `k1_pay2 x0 x1 k1_pay1`, everything else
    as it was. -/
theorem run_first (c : Dev nD) (E : Set ℕ) (i : grid1.Coords)
    (arg1 : Memref sig .tc .vmem S1024x1024 .bf16) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .f32) (harg4 : arg4.IsWhole)
    (hc0 : cond1_0 i) (hc1 : ¬cond1_1 i)
    (x0 x1 xi2 : Vec F S1024x1024 .bf16) (K : PUnit → sProp 𝕄) :
    iprop(owns (c : Thread nD τ) arg1 fullShare x0 ∗ owns (c : Thread nD τ) arg2 fullShare x1
        ∗ owns (c : Thread nD τ) arg3 fullShare xi2 ∗ (∃ d, owns (c : Thread nD τ) arg4 fullShare d)
        ∗ (iprop(owns (c : Thread nD τ) arg1 fullShare x0 ∗ owns (c : Thread nD τ) arg2 fullShare x1
            ∗ owns (c : Thread nD τ) arg3 fullShare xi2
            ∗ owns (c : Thread nD τ) arg4 fullShare (k1_pay2 x0 x1 (k1_pay1 (F := F)))) -∗ K ⟨⟩))
      ⊢ wp frame (wpE (defs₀ (F := F)) Variants.none c none) E (cc1__kv_reduce_kernel i arg1 harg1 arg2 harg2 arg3 harg3 arg4 harg4) K := by
  simp only [cc1__kv_reduce_kernel_eq_skeleton]; unfold cc1__kv_reduce_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_rW, readCov_rW]
  rw [readAt_rW, readAt_rW]

set_option maxHeartbeats 1000000 in
/-- A MIDDLE POINT (neither conditional taken). The accumulator comes in at `xs`, what the point
    before left, and goes out at `xs` plus the block product, `k1_pay2 x0 x1 xs`; the output's buffer
    is not touched. -/
theorem run_middle (c : Dev nD) (E : Set ℕ) (i : grid1.Coords)
    (arg1 : Memref sig .tc .vmem S1024x1024 .bf16) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .f32) (harg4 : arg4.IsWhole)
    (hc0 : ¬cond1_0 i) (hc1 : ¬cond1_1 i)
    (x0 x1 xi2 : Vec F S1024x1024 .bf16) (xs : Vec F S1024x1024 .f32) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xs
        ∗ (iprop(owns (c : Thread nD τ) arg1 fullShare x0 ∗ owns (c : Thread nD τ) arg2 fullShare x1
            ∗ owns (c : Thread nD τ) arg3 fullShare xi2
            ∗ owns (c : Thread nD τ) arg4 fullShare (k1_pay2 x0 x1 xs)) -∗ K ⟨⟩))
      ⊢ wp frame (wpE (defs₀ (F := F)) Variants.none c none) E (cc1__kv_reduce_kernel i arg1 harg1 arg2 harg2 arg3 harg3 arg4 harg4) K := by
  simp only [cc1__kv_reduce_kernel_eq_skeleton]; unfold cc1__kv_reduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [read_writes_rW]
  rw [readAt_rW, readAt_rW, readAt_rW]

set_option maxHeartbeats 1000000 in
/-- THE LAST POINT (reset not taken, final store taken). The accumulator goes from `xs` to
    `k1_pay2 x0 x1 xs` as at a middle point, and the output's buffer, at anything before, is left at
    the scaled and rounded accumulator `k1_pay3 (k1_pay2 x0 x1 xs)`. -/
theorem run_last (c : Dev nD) (E : Set ℕ) (i : grid1.Coords)
    (arg1 : Memref sig .tc .vmem S1024x1024 .bf16) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .f32) (harg4 : arg4.IsWhole)
    (hc0 : ¬cond1_0 i) (hc1 : cond1_1 i)
    (x0 x1 : Vec F S1024x1024 .bf16) (xs : Vec F S1024x1024 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k1_pay3 (k1_pay2 x0 x1 xs))
            ∗ owns (c : Thread nD τ) arg4 fullShare (k1_pay2 x0 x1 xs)) -∗ K ⟨⟩))
      ⊢ wp frame (wpE (defs₀ (F := F)) Variants.none c none) E (cc1__kv_reduce_kernel i arg1 harg1 arg2 harg2 arg3 harg3 arg4 harg4) K := by
  simp only [cc1__kv_reduce_kernel_eq_skeleton]; unfold cc1__kv_reduce_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_rW, readCov_rW]
    rw [readAt_rW, readAt_rW, readAt_rW]
  iexists _; isplitr
  swap; · iexact HS
  ipureintro
  sl_unfold_run_names
  rw [read_writes_rW]
  rw [readAt_rW, readAt_rW, readAt_rW]

/-! ## The accumulator, point by point -/

/-- What the scratch accumulator holds after the body at position `n`: after the first point, zeros
    plus the first blocks' product; after each later point, what the point before left plus that
    point's product (`k1_pay2` is "accumulator + (K block)ᵀ · (V block)"). -/
def accAt1 (c : Dev nD) : (n : ℕ) → n < cfg1.N → Vec F S1024x1024 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩) (accAt1 c n (Nat.lt_of_succ_lt h))

/-- At the first point the accumulator starts from zeros. -/
theorem accAt1_first (c : Dev nD) (t : Fin cfg1.N) (h0 : t.val = 0) :
    accAt1 V c t.val t.isLt = k1_pay2 (iblk1 V c 0 t) (iblk1 V c 1 t) (k1_pay1 (F := F)) := by
  obtain ⟨n, hn⟩ := t
  cases n with
  | zero => rfl
  | succ n => exact absurd h0 (Nat.succ_ne_zero n)

/-- At a later point it starts from what the point before left. -/
theorem accAt1_next (c : Dev nD) (t : Fin cfg1.N) (h0 : t.val ≠ 0) :
    accAt1 V c t.val t.isLt
      = k1_pay2 (iblk1 V c 0 t) (iblk1 V c 1 t) (accAt1 V c (t.val - 1) (Nat.lt_of_le_of_lt (Nat.sub_le _ _) t.isLt)) := by
  obtain ⟨n, hn⟩ := t
  cases n with
  | zero => exact absurd rfl h0
  | succ n => rfl

/-! ## The region's invariant: the accumulator between points -/

/-- The accumulator: a whole scoped buffer of the kernel's own, passed beside the windows. -/
abbrev scM1 : Memref sig .tc .vmem S1024x1024 .f32 := Memref.whole cc1_scratch0

/-- The core's other scoped buffers that are no staging buffer of this region (the other regions'
    staging buffers), each at some contents: the body never touches them. -/
abbrev scRest1 (c : Dev nD) : sProp 𝕄 :=
  Pipeline.scopedRestBut (Ix := Unit) (Name := ℕ) (U := UR sig nD τ) (Lvl := ℕ) (Val := Elt F) spec1 c [cc1_scratch0]

/-- What the launch hands the region, with the accumulator split off as a memref owned at some
    contents. -/
theorem PhiA1_eq (c : Dev nD) :
    (Pipeline.ΦA spec1 c : sProp 𝕄)
      = iprop((iprop(∃ d, owns (c : Thread nD τ) scM1 fullShare d) ∗ scRest1 (F := F) c) ∗ (∃ r, prngReg c r)) := by
  unfold Pipeline.ΦA scRest1
  rw [Pipeline.scopedRest_split_of_list spec1 c [cc1_scratch0] (by decide) (by decide)]
  simp only [scM1, owns_whole, bigSepL_singleton]; try rfl

/-- The invariant before position `n`: before the first point what the launch hands over (the
    accumulator at anything); afterwards the accumulator at what the point before left. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ scRest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (accAt1 V c n hn) ∗ scRest1 (F := F) c) ∗ (∃ r, prngReg c r)) := rfl

theorem PhiS1_pos (c : Dev nD) (n : ℕ) (h : n ≤ cfg1.N) (hz : n ≠ 0) :
    PhiS1 V c n h = iprop((owns (c : Thread nD τ) scM1 fullShare (accAt1 V c (n - 1) (by omega)) ∗ scRest1 (F := F) c) ∗ (∃ r, prngReg c r)) := by
  cases n with
  | zero => exact absurd rfl hz
  | succ n => rfl

/-! ## The pipeline's proof data -/

/-- The proof data of this region on core `c`: the arrays as the region finds them; after the body
    the K and V buffers at their blocks, the output's buffer at the scaled, rounded accumulator
    (`k1_pay3`: times 1/32, to bf16) — consulted at the last point only, where the body stores it;
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
/-- The output's buffer after the body: the accumulator after this point, times 1/32, rounded. -/
theorem after1_2 (c : Dev nD) (t : Fin cfg1.N) : (dat1 V c).after 2 t = k1_pay3 (accAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The K and V buffers hold their blocks; the point's position says which
    of the three cases it is in; the invariant hands the body the accumulator (at anything at the
    first point, at what the point before left afterwards) and takes it back at this point's
    contents; before the last point the output's buffer goes through untouched, at the last it is
    left at the scaled accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 8 = 7
  · -- the last point
    have h0 : ¬t.val % 8 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [accAt1_next V c t hz]
    rw [PhiS1_castSucc V c t, PhiS1_pos V c _ _ hz]
    iintro ⟨⟨⟨HS, HR⟩, Hg⟩, Ho, ⟨%d0, H0⟩, ⟨%d1, H1⟩, ⟨%d2, H2⟩⟩
    iapply (run_last c Set.univ (grid1.coords t) _ _ _ _ _ _ _ _ (fun h => h0 ((hcond1_0 t).mp h)) ((hcond1_1 t).mpr h1) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 8 = 0
    · -- the first point
      have hz : t.val = 0 := by omega
      rw [accAt1_first V c t hz]
      rw [PhiS1_castSucc V c t, PhiS1_zero V c _ _ hz, PhiA1_eq]
      iintro ⟨⟨⟨HS, HR⟩, Hg⟩, Ho, ⟨%d0, H0⟩, ⟨%d1, H1⟩, ⟨%d2, H2⟩⟩
      iapply (run_first c Set.univ (grid1.coords t) _ _ _ _ _ _ _ _ ((hcond1_0 t).mpr h0) (fun h => h1 ((hcond1_1 t).mp h)) (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · -- a middle point
      have hz : t.val ≠ 0 := by omega
      rw [accAt1_next V c t hz]
      rw [PhiS1_castSucc V c t, PhiS1_pos V c _ _ hz]
      iintro ⟨⟨⟨HS, HR⟩, Hg⟩, Ho, ⟨%d0, H0⟩, ⟨%d1, H1⟩, ⟨%d2, H2⟩⟩
      iapply (run_middle c Set.univ (grid1.coords t) _ _ _ _ _ _ _ _ (fun h => h0 ((hcond1_0 t).mp h)) (fun h => h1 ((hcond1_1 t).mp h)) (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Cert.KernelIdeal.Hand

end
-- ==== Proof.Frame.KernelIdeal.R2.lean ====
import proofs.«131325_j79113297592362_1_alg».proof.Proof.Gen.KernelIdeal.Launch
import proofs.«131325_j79113297592362_1_alg».proof.Proof.Gen.KernelIdeal.Skeleton
import proofs.«131325_j79113297592362_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The last stage of the kernel: the output projection  O = Q · T

The third pipelined call walks the 8192 rows of Q in eight blocks of 1024 rows. At every grid point it multiplies
the current row block of Q (1024 × 1024) by the whole matrix T (1024 × 1024, the same at every point) and writes the
product as the matching row block of the output. Nothing is carried from one point to the next. Everything below is
stated at the contents `V` the buffers hold when this stage is entered. -/

/-! ## The windows' blocks -/

/-- The block window `w` shows at grid point `t`, cut out of the window's array as the stage finds it: for
    window 0 the `t`-th band of 1024 rows of Q, for window 1 all of T, for window 2 the `t`-th band of the output. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row band of Q is in its staging buffer at every point (it is fetched at every point; the statement does not
    even need that), for any proof data over `V`'s array whose body leaves the band untouched. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- T is in its staging buffer at every point although it is brought in only once, at the first point: its block
    index never moves, so a buffer the body leaves alone still shows the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- Every load and the one store of the body take a whole 1024 × 1024 buffer. -/
abbrev r2_0 : Rect S1024x1024 := Rect.unit (s := S1024x1024) ![0, 0] S1024x1024.size inb_S1024x1024_S1024x1024_0_0

/-! ## What the body leaves in the output window's buffer -/

/-- The output buffer after the body, from the two input blocks: the product of the Q band `x0` and T `x1`,
    stored once over the whole buffer. -/
def out2_2 (x0 : Vec F S1024x1024 .bf16) (x1 : Vec F S1024x1024 .bf16) : Vec F S1024x1024 .f32 :=
  View.canon [⟨r2_0, k2_pay1 (View.ld x0 r2_0) (View.ld x1 r2_0)⟩]

/-- The single store fills the buffer. -/
theorem cover2_2 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
/-- The body on whole staging buffers — the Q band's at `x0`, T's at `x1`, the output's at anything — ends with the
    inputs as they were and the output buffer at their product `out2_2 x0 x1`. (It also loads the output buffer
    before storing; the loaded value is not used.) -/
theorem sound_kernel2 (c : Dev nD) (E : Set ℕ) (i : grid2.Coords) (arg1 : Memref sig .tc .vmem S1024x1024 .bf16) (harg1 : arg1.IsWhole)
    (arg2 : Memref sig .tc .vmem S1024x1024 .bf16) (harg2 : arg2.IsWhole) (arg3 : Memref sig .tc .vmem S1024x1024 .f32) (harg3 : arg3.IsWhole)
    (x0 : Vec F S1024x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__out_kernel i arg1 harg1 arg2 harg2 arg3 harg3) K := by
  simp only [cc2__out_kernel_eq_skeleton]; unfold cc2__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The stage's proof data -/

/-- The proof data of this stage on core `c`: the three arrays as the stage finds them (`V`); after the body at
    point `t` the two input buffers still hold their blocks (the Q band of the point, and T) and the output buffer
    holds their product; the invariant is the plain one (the other scoped buffers and the generator register, untouched);
    nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the stage-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, brought in there or earlier. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two input buffers hold the Q band and T, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Frame.KernelIdeal.Run.lean ====
/-
  The whole program's run: nine host operations (each weight matrix transposed, the biases laid out as rows), then
  the three kernel regions one after the other. Between two items every buffer that lives across regions holds
  known contents: after the host operations what they compute from the arguments; after a region its output arrays
  at what its grid points wrote back, block by block, and everything else untouched. Composing the four items,
  every fair execution from any memory with all counters at zero terminates, and in the final memory every such
  buffer holds the last of these contents. In particular no argument array is ever written, and the result array
  is what the third region's write-backs make of it.
-/
import proofs.«131325_j79113297592362_1_alg».proof.Proof.Frame.KernelIdeal.R0
import proofs.«131325_j79113297592362_1_alg».proof.Proof.Frame.KernelIdeal.R1
import proofs.«131325_j79113297592362_1_alg».proof.Proof.Frame.KernelIdeal.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => (s₀ m ρ).mem ((c : Dev nD), b)
/-- After the host operations: what the first region is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- When region 0 ends: its windows' arrays at what the pipeline leaves (an input as entered, an output with its
    write-backs folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- When region 1 ends: its windows' arrays at what the pipeline leaves (an input as entered, an output with its
    write-backs folded in), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- When region 2 ends: its windows' arrays at what the pipeline leaves (an input as entered, an output with its
    write-backs folded in), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The proof data of the three pipelines, each at its region's entry contents -/

/-- No pipeline has a prefetched table. -/
abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`. -/
abbrev Tₙ (c : Dev nD) : sProp 𝕄 := iprop(StableHlo.held (c : Thread nD τ) (Pipeline.ucRefs τ sig) (W4 m ρ c) ∗ ∃ r, prngReg c r)

/-- The host operations as an item. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R

/-! ## The regions as items -/

/-- The generator register, anything else, and the second region's scoped buffers that no window stages make the
    plain invariant (those buffers and the register), whatever the middle part is. -/
theorem toPlain1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- And the plain invariant gives them back. -/
theorem ofPlain1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- Region 0 over the thread state: entered with every unscoped buffer at the contents the item before left, left with
    its windows' arrays at what the write-backs made of them and every other buffer as entered. The arrays are split
    out of the unscoped buffers at entry and put back at exit; the generator register goes into the region's invariant
    and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents the item before left, left with
    its windows' arrays at what the write-backs made of them and every other buffer as entered. The arrays are split
    out of the unscoped buffers at entry and put back at exit; the generator register goes into the region's invariant
    and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPlain1 c _).trans (hin1 (V2 m ρ) c)
  hout c := by
    rw [Pipeline.ownSems0_none]
    exact (hout1 (V2 m ρ) c).trans (ofPlain1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents the item before left, left with
    its windows' arrays at what the write-backs made of them and every other buffer as entered. The arrays are split
    out of the unscoped buffers at entry and put back at exit; the generator register goes into the region's invariant
    and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four items, and the launch -/

abbrev segs : List (Pipeline.Seg (pcfgs (F := F)) adm (pdats m ρ) () defs₀ 𝒱₀ L lv) :=
  [ .host (hseg0 m ρ), .region (reg0 m ρ), .region (reg1 m ρ), .region (reg2 m ρ) ]
theorem main_run (c : Dev nD) : main (F := F) c = Pipeline.Seg.run (segs m ρ) := (main_chain c).trans (by chain_rfl)

set_option backward.isDefEq.respectTransparency.types false in
/-- From any memory with every counter at zero, every fair execution of the program terminates without a fault, and
    in the final memory every buffer that lives across regions holds the contents the last item leaves (`W4`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the final memory holds -/

/-! No item writes an argument array: the host operations write their own results, a region writes its output
    arrays only, and the first argument is an input window of the first region, which leaves an input as it found it. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg6) := rfl

/-- The result array ends at what the third region's write-backs make of it. -/
theorem W4_result (c : Dev nD) : W4 m ρ c (Proc.devRef .tc main_v11) = (dat2 (V3 m ρ) c).arrAt 2 cfg2.N :=
  W4_arr m ρ c 2

/-- Every fair execution terminates without a fault, the result array ends at the third region's final contents
    and every argument array ends as launched. -/
theorem run_result : θ_run defs (onTc (τ := τ) (main (F := F))) ⟨m, fun _ => 0, ρ⟩ (fun r => ∀ c : Dev nD,
      r.2.mem ((c.tc : Thread nD τ).loc main_v11) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v11 (by decide))).trans (W4_result m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

/-- The frame: every fair execution terminates without a fault and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.KernelIdeal.Hand

end
-- ==== Proof.Typed.lean ====
/-
  A buffer's contents, read as a function on its literal shape. The contents of a buffer at a memory location are a
  function from the location's index type to its element type; both are the literal shape's and the literal float
  type's once the location is looked up, but arithmetic on the entries needs them named outright. `lit S φ f` is
  `f` itself, stated at the shape `S` and the float type `φ`.
-/
import Idealize.ShloMosaic.PureOps.Ideal
import Idealize.ShloMosaic.Lib.ValueIdx

namespace Cert

open Idealize.ShloMosaic

/-- `f`, as a function on the indices of the literal shape `S` with values extended reals. -/
abbrev lit (S : Shape) (φ : FTy) (f : FVec Ideal S φ) : FVec Ideal S φ := f

end Cert
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.V0.lean ====
import proofs.«131325_j79113297592362_1_alg».proof.Proof.Frame.KernelIdeal.R0
import proofs.«131325_j79113297592362_1_alg».proof.Proof.LibPlainDot
import proofs.«131325_j79113297592362_1_alg».proof.Proof.Typed
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.TcCoe Idealize.ShloMosaic.ValueIdx
open Idealize.ShloMosaic.Pipeline (Dat Cfg Window)

/-! # The projection region's three output arrays, entry by entry

Each of the three outputs is the activations times a weight matrix plus a bias row: entry `(n, j)` is
`∑ i, x (n, i) · w (i, j) + b (0, j)`. At the ideal values the roundings to the narrow format are the identity,
the product into the zero accumulator is the plain sum of products, and the bias row is repeated down the rows.
Row `n` of the array is written by grid point `n / 512`, as row `n % 512` of its block. -/

/-- The projection of the activations `A` by the weight matrix `Wt` with the bias row `B`, entry by entry. -/
def projOf (A : S8192x1024.Idx → Ideal .f32) (Wt : S1024x1024.Idx → Ideal .bf16) (B : S1x1024.Idx → Ideal .f32) :
    S8192x1024.Idx → Ideal .bf16 :=
  fun i => (∑ k : Fin 1024, A (ix2 (i 0) k) * Wt (ix2 k (i 1))) + B (ix2 0 (i 1))

/-- The projection at the entry `(n, j)`. -/
theorem projOf_apply (A : S8192x1024.Idx → Ideal .f32) (Wt : S1024x1024.Idx → Ideal .bf16) (B : S1x1024.Idx → Ideal .f32)
    (n : Fin 8192) (j : Fin 1024) :
    projOf A Wt B (ix2 n j) = (∑ i : Fin 1024, A (ix2 n i) * Wt (ix2 i j)) + B (ix2 0 j) := rfl

/-- The zero offsets of a whole-buffer access, as a constant function. -/
theorem proj_zeroOff : (![0, 0] : Fin 2 → Nat) = fun _ => 0 := funext fun a => by fin_cases a <;> rfl

/-- One entry of the body's result on a block: the value rounded, the product taken into the zero accumulator and
    the bias row repeated down the rows are, at the ideal values, the sum of products along row `p` of the block
    and column `q` of the weights, plus the bias at column `q`. Stated for any spelling `d` of the plain
    dimension numbers and any evidence for the layout operations, so that it serves all three outputs. -/
theorem proj_entry (d : DotDims S512x1024 S1024x1024 S512x1024) (hd : d = DotDims.plain 512 1024 1024)
    (x : Vec Ideal S512x1024 .f32) (w : Vec Ideal S1024x1024 .bf16) (b : Vec Ideal S1x1024 .f32)
    (h1 : FTy.bits .bf16 < FTy.bits .f32) (h2 : S1024x1024.ShapeCasts S1024x1024) (h3 : S1x1024.ShapeCasts S1x1024)
    (h4 : S1x1024.Broadcasts S512x1024) (p : Fin 512) (q : Fin 1024) :
    (truncf .bf16 (addf (matmul d none (truncf .bf16 x h1) (shapeCast S1024x1024 w h2 : FVec Ideal S1024x1024 .bf16) (constant (F := Ideal) S512x1024 .f32 0x00000000#32))
        (broadcastTo S512x1024 (shapeCast S1x1024 b h3 : FVec Ideal S1x1024 .f32) h4)) h1 : FVec Ideal S512x1024 .bf16) (ix2 p q)
      = (∑ k : Fin 1024, x (ix2 p k) * w (ix2 k q)) + b (ix2 0 q) := by
  rw [truncf_apply, addf_apply, shapeCast_self, shapeCast_self, Cert.PlainDot.matmul_zero_apply d hd,
    broadcastTo_apply b h4 (ix2 p q) (ix2 0 q) (fun a => by match a with | ⟨0, _⟩ => rfl | ⟨1, _⟩ => rfl)]
  simp only [truncf_apply]

/-- The three payloads are that term. -/
theorem proj_pay_q (x : Vec Ideal S512x1024 .f32) (w : Vec Ideal S1024x1024 .bf16) (b : Vec Ideal S1x1024 .f32) (p : Fin 512) (q : Fin 1024) :
    k0_pay2 (F := Ideal) x w b (ix2 p q) = (∑ k : Fin 1024, x (ix2 p k) * w (ix2 k q)) + b (ix2 0 q) :=
  proj_entry _ rfl x w b _ _ _ _ p q
theorem proj_pay_k (x : Vec Ideal S512x1024 .f32) (w : Vec Ideal S1024x1024 .bf16) (b : Vec Ideal S1x1024 .f32) (p : Fin 512) (q : Fin 1024) :
    k0_pay3 (F := Ideal) x w b (ix2 p q) = (∑ k : Fin 1024, x (ix2 p k) * w (ix2 k q)) + b (ix2 0 q) :=
  proj_entry _ rfl x w b _ _ _ _ p q
theorem proj_pay_v (x : Vec Ideal S512x1024 .f32) (w : Vec Ideal S1024x1024 .bf16) (b : Vec Ideal S1x1024 .f32) (p : Fin 512) (q : Fin 1024) :
    k0_pay4 (F := Ideal) x w b (ix2 p q) = (∑ k : Fin 1024, x (ix2 p k) * w (ix2 k q)) + b (ix2 0 q) :=
  proj_entry _ rfl x w b _ _ _ _ p q

/-- Once the block's rows are the activations' rows, its weights the weight matrix and its bias the bias row, the
    block's entry is the array's entry. -/
theorem proj_entry_of_block (A : S8192x1024.Idx → Ideal .f32) (Wt : S1024x1024.Idx → Ideal .bf16) (B : S1x1024.Idx → Ideal .f32)
    (x : Vec Ideal S512x1024 .f32) (w : Vec Ideal S1024x1024 .bf16) (b : Vec Ideal S1x1024 .f32)
    (i : S8192x1024.Idx) (p : Fin 512) (q : Fin 1024)
    (hx : ∀ k : Fin 1024, x (ix2 p k) = A (ix2 (i 0) k)) (hw : ∀ k : Fin 1024, w (ix2 k q) = Wt (ix2 k (i 1)))
    (hb : b (ix2 0 q) = B (ix2 0 (i 1))) :
    (∑ k : Fin 1024, x (ix2 p k) * w (ix2 k q)) + b (ix2 0 q) = projOf A Wt B i := by
  unfold projOf
  rw [hb]
  exact congrArg (· + _) (Finset.sum_congr rfl fun k _ => by rw [hx, hw])

/-- The index maps, decided once over the sixteen grid points: the activations' block and the three output blocks
    are row block `t`; the weight matrices and bias rows are block `(0, 0)`, the whole array. -/
theorem proj_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

-- the TensorCore's buffer contents when the region is entered, at the ideal values
variable (V : (c : Dev nD) → (b : Ref sig .tc) → Buf (Elt Ideal) ((c : Thread nD τ).loc b))

/-! ## Output `q` (window 7) -/

/-- What point `t` writes back into window 7's array is block `t` of the projection of the arrays the region finds. -/
theorem proj_flushed_q (c : Dev nD) (t : Fin cfg0.N) :
    (dat0 V c).flushed 7 t = ((cfg0.win 7).blk t).view.read (Elt Ideal) (projOf (V c main_arg0) (V c main_v1) (V c main_v6)) := by
  show (cfg0.win 7).cut (grid0.coords t) ((dat0 V c).after 7 t) = _
  rw [after0_7]
  unfold out0_7
  rw [View.canon_unit_zero proj_zeroOff]
  simp only [View.ld_unit_zero (S := S512x1024) proj_zeroOff, View.ld_unit_zero (S := S1024x1024) proj_zeroOff, View.ld_unit_zero (S := S1x1024) proj_zeroOff]
  obtain ⟨e00, e01, e10, e11, e20, e21, e30, e31, e40, e41, e50, e51, e60, e61, e70, e71, e80, e81, e90, e91⟩ := proj_idx_facts t
  funext j
  obtain ⟨p, q, rfl⟩ : ∃ (p : Fin 512) (q : Fin 1024), j = ix2 p q := ⟨j 0, j 1, eq_ix2 j⟩
  show k0_pay2 (iblk0 V c 0 t) (iblk0 V c 1 t) (iblk0 V c 4 t) (ix2 p q)
    = projOf (V c main_arg0) (V c main_v1) (V c main_v6) (((cfg0.win 7).blk t).view.emb (ix2 p q))
  refine (proj_pay_q _ _ _ p q).trans (proj_entry_of_block _ _ _ _ _ _ _ p q (fun k => ?_) (fun k => ?_) ?_)
  · show V c main_arg0 (((cfg0.win 0).blk t).view.emb (ix2 p k)) = V c main_arg0 (ix2 ((((cfg0.win 7).blk t).view.emb (ix2 p q)) 0) k)
    refine congrArg (V c main_arg0) (funext fun a => Fin.ext ?_)
    match a with
    | ⟨0, _⟩ => show win0_0.index t (0 : Fin 2) * 512 + 1 * p.val = win0_7.index t (0 : Fin 2) * 512 + 1 * p.val; omega
    | ⟨1, _⟩ => show win0_0.index t (1 : Fin 2) * 1024 + 1 * k.val = k.val; omega
  · show V c main_v1 (((cfg0.win 1).blk t).view.emb (ix2 k q)) = V c main_v1 (ix2 k ((((cfg0.win 7).blk t).view.emb (ix2 p q)) 1))
    refine congrArg (V c main_v1) (funext fun a => Fin.ext ?_)
    match a with
    | ⟨0, _⟩ => show win0_1.index t (0 : Fin 2) * 1024 + 1 * k.val = k.val; omega
    | ⟨1, _⟩ => show win0_1.index t (1 : Fin 2) * 1024 + 1 * q.val = win0_7.index t (1 : Fin 2) * 1024 + 1 * q.val; omega
  · show V c main_v6 (((cfg0.win 4).blk t).view.emb (ix2 0 q)) = V c main_v6 (ix2 0 ((((cfg0.win 7).blk t).view.emb (ix2 p q)) 1))
    refine congrArg (V c main_v6) (funext fun a => Fin.ext ?_)
    match a with
    | ⟨0, _⟩ => show win0_4.index t (0 : Fin 2) * 1 + 1 * 0 = 0; omega
    | ⟨1, _⟩ => show win0_4.index t (1 : Fin 2) * 1024 + 1 * q.val = win0_7.index t (1 : Fin 2) * 1024 + 1 * q.val; omega

/-- An index of the array lies in point `t`'s block exactly when each coordinate is in the block's range. -/
theorem proj_mem_blk_q (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v9_0).slice (win0_7.rect t)).set ↔ _
  rw [View.set_slice_whole, Rect.mem_set_unit]
  exact Iff.rfl

/-- Every row of the array is in some point's block: row `n` in point `n / 512`'s. -/
theorem proj_cover_q (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  refine ⟨⟨(i 0).val / 512, by show (i 0).val / 512 < 16; omega⟩, flush0_7 _, ?_⟩
  rw [proj_mem_blk_q]
  obtain ⟨e00, e01, e10, e11, e20, e21, e30, e31, e40, e41, e50, e51, e60, e61, e70, e71, e80, e81, e90, e91⟩ := proj_idx_facts ⟨(i 0).val / 512, by show (i 0).val / 512 < 16; omega⟩
  intro a
  match a with
  | ⟨0, _⟩ =>
    show win0_7.index _ (0 : Fin 2) * 512 ≤ (i 0).val ∧ (i 0).val < win0_7.index _ (0 : Fin 2) * 512 + 512
    rw [e70]; show (i 0).val / 512 * 512 ≤ (i 0).val ∧ (i 0).val < (i 0).val / 512 * 512 + 512; omega
  | ⟨1, _⟩ =>
    show win0_7.index _ (1 : Fin 2) * 1024 ≤ (i 1).val ∧ (i 1).val < win0_7.index _ (1 : Fin 2) * 1024 + 1024
    rw [e71]; omega

/-- The array after the region is the projection, whole. -/
theorem proj_q_array (c : Dev nD) :
    (dat0 V c).arrAt 7 cfg0.N = projOf (V c main_arg0) (V c main_v1) (V c main_v6) :=
  (dat0 V c).arrAt_eq_of_cover 7 (projOf (V c main_arg0) (V c main_v1) (V c main_v6)) (fun t _ => proj_flushed_q V c t) proj_cover_q

/-- Entry `(n, j)` of the array after the region. -/
theorem proj_q_at (c : Dev nD) (n : Fin 8192) (j : Fin 1024) :
    Cert.lit S8192x1024 .bf16 ((dat0 (F := Ideal) V c).arrAt 7 cfg0.N) (ix2 n j)
      = (∑ i : Fin 1024, Cert.lit S8192x1024 .f32 (V c main_arg0) (ix2 n i) * Cert.lit S1024x1024 .bf16 (V c main_v1) (ix2 i j))
        + Cert.lit S1x1024 .f32 (V c main_v6) (ix2 0 j) :=
  congrFun (proj_q_array V c) (ix2 n j)

/-! ## Output `k` (window 8) -/

/-- What point `t` writes back into window 8's array is block `t` of the projection of the arrays the region finds. -/
theorem proj_flushed_k (c : Dev nD) (t : Fin cfg0.N) :
    (dat0 V c).flushed 8 t = ((cfg0.win 8).blk t).view.read (Elt Ideal) (projOf (V c main_arg0) (V c main_v3) (V c main_v7)) := by
  show (cfg0.win 8).cut (grid0.coords t) ((dat0 V c).after 8 t) = _
  rw [after0_8]
  unfold out0_8
  rw [View.canon_unit_zero proj_zeroOff]
  simp only [View.ld_unit_zero (S := S512x1024) proj_zeroOff, View.ld_unit_zero (S := S1024x1024) proj_zeroOff, View.ld_unit_zero (S := S1x1024) proj_zeroOff]
  obtain ⟨e00, e01, e10, e11, e20, e21, e30, e31, e40, e41, e50, e51, e60, e61, e70, e71, e80, e81, e90, e91⟩ := proj_idx_facts t
  funext j
  obtain ⟨p, q, rfl⟩ : ∃ (p : Fin 512) (q : Fin 1024), j = ix2 p q := ⟨j 0, j 1, eq_ix2 j⟩
  show k0_pay3 (iblk0 V c 0 t) (iblk0 V c 2 t) (iblk0 V c 5 t) (ix2 p q)
    = projOf (V c main_arg0) (V c main_v3) (V c main_v7) (((cfg0.win 8).blk t).view.emb (ix2 p q))
  refine (proj_pay_k _ _ _ p q).trans (proj_entry_of_block _ _ _ _ _ _ _ p q (fun k => ?_) (fun k => ?_) ?_)
  · show V c main_arg0 (((cfg0.win 0).blk t).view.emb (ix2 p k)) = V c main_arg0 (ix2 ((((cfg0.win 8).blk t).view.emb (ix2 p q)) 0) k)
    refine congrArg (V c main_arg0) (funext fun a => Fin.ext ?_)
    match a with
    | ⟨0, _⟩ => show win0_0.index t (0 : Fin 2) * 512 + 1 * p.val = win0_8.index t (0 : Fin 2) * 512 + 1 * p.val; omega
    | ⟨1, _⟩ => show win0_0.index t (1 : Fin 2) * 1024 + 1 * k.val = k.val; omega
  · show V c main_v3 (((cfg0.win 2).blk t).view.emb (ix2 k q)) = V c main_v3 (ix2 k ((((cfg0.win 8).blk t).view.emb (ix2 p q)) 1))
    refine congrArg (V c main_v3) (funext fun a => Fin.ext ?_)
    match a with
    | ⟨0, _⟩ => show win0_2.index t (0 : Fin 2) * 1024 + 1 * k.val = k.val; omega
    | ⟨1, _⟩ => show win0_2.index t (1 : Fin 2) * 1024 + 1 * q.val = win0_8.index t (1 : Fin 2) * 1024 + 1 * q.val; omega
  · show V c main_v7 (((cfg0.win 5).blk t).view.emb (ix2 0 q)) = V c main_v7 (ix2 0 ((((cfg0.win 8).blk t).view.emb (ix2 p q)) 1))
    refine congrArg (V c main_v7) (funext fun a => Fin.ext ?_)
    match a with
    | ⟨0, _⟩ => show win0_5.index t (0 : Fin 2) * 1 + 1 * 0 = 0; omega
    | ⟨1, _⟩ => show win0_5.index t (1 : Fin 2) * 1024 + 1 * q.val = win0_8.index t (1 : Fin 2) * 1024 + 1 * q.val; omega

/-- An index of the array lies in point `t`'s block exactly when each coordinate is in the block's range. -/
theorem proj_mem_blk_k (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v9_1).slice (win0_8.rect t)).set ↔ _
  rw [View.set_slice_whole, Rect.mem_set_unit]
  exact Iff.rfl

/-- Every row of the array is in some point's block: row `n` in point `n / 512`'s. -/
theorem proj_cover_k (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  refine ⟨⟨(i 0).val / 512, by show (i 0).val / 512 < 16; omega⟩, flush0_8 _, ?_⟩
  rw [proj_mem_blk_k]
  obtain ⟨e00, e01, e10, e11, e20, e21, e30, e31, e40, e41, e50, e51, e60, e61, e70, e71, e80, e81, e90, e91⟩ := proj_idx_facts ⟨(i 0).val / 512, by show (i 0).val / 512 < 16; omega⟩
  intro a
  match a with
  | ⟨0, _⟩ =>
    show win0_8.index _ (0 : Fin 2) * 512 ≤ (i 0).val ∧ (i 0).val < win0_8.index _ (0 : Fin 2) * 512 + 512
    rw [e80]; show (i 0).val / 512 * 512 ≤ (i 0).val ∧ (i 0).val < (i 0).val / 512 * 512 + 512; omega
  | ⟨1, _⟩ =>
    show win0_8.index _ (1 : Fin 2) * 1024 ≤ (i 1).val ∧ (i 1).val < win0_8.index _ (1 : Fin 2) * 1024 + 1024
    rw [e81]; omega

/-- The array after the region is the projection, whole. -/
theorem proj_k_array (c : Dev nD) :
    (dat0 V c).arrAt 8 cfg0.N = projOf (V c main_arg0) (V c main_v3) (V c main_v7) :=
  (dat0 V c).arrAt_eq_of_cover 8 (projOf (V c main_arg0) (V c main_v3) (V c main_v7)) (fun t _ => proj_flushed_k V c t) proj_cover_k

/-- Entry `(n, j)` of the array after the region. -/
theorem proj_k_at (c : Dev nD) (n : Fin 8192) (j : Fin 1024) :
    Cert.lit S8192x1024 .bf16 ((dat0 (F := Ideal) V c).arrAt 8 cfg0.N) (ix2 n j)
      = (∑ i : Fin 1024, Cert.lit S8192x1024 .f32 (V c main_arg0) (ix2 n i) * Cert.lit S1024x1024 .bf16 (V c main_v3) (ix2 i j))
        + Cert.lit S1x1024 .f32 (V c main_v7) (ix2 0 j) :=
  congrFun (proj_k_array V c) (ix2 n j)

/-! ## Output `v` (window 9) -/

/-- What point `t` writes back into window 9's array is block `t` of the projection of the arrays the region finds. -/
theorem proj_flushed_v (c : Dev nD) (t : Fin cfg0.N) :
    (dat0 V c).flushed 9 t = ((cfg0.win 9).blk t).view.read (Elt Ideal) (projOf (V c main_arg0) (V c main_v5) (V c main_v8)) := by
  show (cfg0.win 9).cut (grid0.coords t) ((dat0 V c).after 9 t) = _
  rw [after0_9]
  unfold out0_9
  rw [View.canon_unit_zero proj_zeroOff]
  simp only [View.ld_unit_zero (S := S512x1024) proj_zeroOff, View.ld_unit_zero (S := S1024x1024) proj_zeroOff, View.ld_unit_zero (S := S1x1024) proj_zeroOff]
  obtain ⟨e00, e01, e10, e11, e20, e21, e30, e31, e40, e41, e50, e51, e60, e61, e70, e71, e80, e81, e90, e91⟩ := proj_idx_facts t
  funext j
  obtain ⟨p, q, rfl⟩ : ∃ (p : Fin 512) (q : Fin 1024), j = ix2 p q := ⟨j 0, j 1, eq_ix2 j⟩
  show k0_pay4 (iblk0 V c 0 t) (iblk0 V c 3 t) (iblk0 V c 6 t) (ix2 p q)
    = projOf (V c main_arg0) (V c main_v5) (V c main_v8) (((cfg0.win 9).blk t).view.emb (ix2 p q))
  refine (proj_pay_v _ _ _ p q).trans (proj_entry_of_block _ _ _ _ _ _ _ p q (fun k => ?_) (fun k => ?_) ?_)
  · show V c main_arg0 (((cfg0.win 0).blk t).view.emb (ix2 p k)) = V c main_arg0 (ix2 ((((cfg0.win 9).blk t).view.emb (ix2 p q)) 0) k)
    refine congrArg (V c main_arg0) (funext fun a => Fin.ext ?_)
    match a with
    | ⟨0, _⟩ => show win0_0.index t (0 : Fin 2) * 512 + 1 * p.val = win0_9.index t (0 : Fin 2) * 512 + 1 * p.val; omega
    | ⟨1, _⟩ => show win0_0.index t (1 : Fin 2) * 1024 + 1 * k.val = k.val; omega
  · show V c main_v5 (((cfg0.win 3).blk t).view.emb (ix2 k q)) = V c main_v5 (ix2 k ((((cfg0.win 9).blk t).view.emb (ix2 p q)) 1))
    refine congrArg (V c main_v5) (funext fun a => Fin.ext ?_)
    match a with
    | ⟨0, _⟩ => show win0_3.index t (0 : Fin 2) * 1024 + 1 * k.val = k.val; omega
    | ⟨1, _⟩ => show win0_3.index t (1 : Fin 2) * 1024 + 1 * q.val = win0_9.index t (1 : Fin 2) * 1024 + 1 * q.val; omega
  · show V c main_v8 (((cfg0.win 6).blk t).view.emb (ix2 0 q)) = V c main_v8 (ix2 0 ((((cfg0.win 9).blk t).view.emb (ix2 p q)) 1))
    refine congrArg (V c main_v8) (funext fun a => Fin.ext ?_)
    match a with
    | ⟨0, _⟩ => show win0_6.index t (0 : Fin 2) * 1 + 1 * 0 = 0; omega
    | ⟨1, _⟩ => show win0_6.index t (1 : Fin 2) * 1024 + 1 * q.val = win0_9.index t (1 : Fin 2) * 1024 + 1 * q.val; omega

/-- An index of the array lies in point `t`'s block exactly when each coordinate is in the block's range. -/
theorem proj_mem_blk_v (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v9_2).slice (win0_9.rect t)).set ↔ _
  rw [View.set_slice_whole, Rect.mem_set_unit]
  exact Iff.rfl

/-- Every row of the array is in some point's block: row `n` in point `n / 512`'s. -/
theorem proj_cover_v (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  refine ⟨⟨(i 0).val / 512, by show (i 0).val / 512 < 16; omega⟩, flush0_9 _, ?_⟩
  rw [proj_mem_blk_v]
  obtain ⟨e00, e01, e10, e11, e20, e21, e30, e31, e40, e41, e50, e51, e60, e61, e70, e71, e80, e81, e90, e91⟩ := proj_idx_facts ⟨(i 0).val / 512, by show (i 0).val / 512 < 16; omega⟩
  intro a
  match a with
  | ⟨0, _⟩ =>
    show win0_9.index _ (0 : Fin 2) * 512 ≤ (i 0).val ∧ (i 0).val < win0_9.index _ (0 : Fin 2) * 512 + 512
    rw [e90]; show (i 0).val / 512 * 512 ≤ (i 0).val ∧ (i 0).val < (i 0).val / 512 * 512 + 512; omega
  | ⟨1, _⟩ =>
    show win0_9.index _ (1 : Fin 2) * 1024 ≤ (i 1).val ∧ (i 1).val < win0_9.index _ (1 : Fin 2) * 1024 + 1024
    rw [e91]; omega

/-- The array after the region is the projection, whole. -/
theorem proj_v_array (c : Dev nD) :
    (dat0 V c).arrAt 9 cfg0.N = projOf (V c main_arg0) (V c main_v5) (V c main_v8) :=
  (dat0 V c).arrAt_eq_of_cover 9 (projOf (V c main_arg0) (V c main_v5) (V c main_v8)) (fun t _ => proj_flushed_v V c t) proj_cover_v

/-- Entry `(n, j)` of the array after the region. -/
theorem proj_v_at (c : Dev nD) (n : Fin 8192) (j : Fin 1024) :
    Cert.lit S8192x1024 .bf16 ((dat0 (F := Ideal) V c).arrAt 9 cfg0.N) (ix2 n j)
      = (∑ i : Fin 1024, Cert.lit S8192x1024 .f32 (V c main_arg0) (ix2 n i) * Cert.lit S1024x1024 .bf16 (V c main_v5) (ix2 i j))
        + Cert.lit S1x1024 .f32 (V c main_v8) (ix2 0 j) :=
  congrFun (proj_v_array V c) (ix2 n j)

end Cert.KernelIdeal.Val

end
-- ==== Proof.V1.lean ====
import proofs.«131325_j79113297592362_1_alg».proof.Proof.Frame.KernelIdeal.R1
import proofs.«131325_j79113297592362_1_alg».proof.Proof.LibPlainDot
import proofs.«131325_j79113297592362_1_alg».proof.Proof.Typed
import Idealize.ShloMosaic.Lib.Pipeline.Value
import Idealize.ShloMosaic.Lib.ValueIdx
import Idealize.ShloMosaic.PureOps.Ideal.Laws
import Mathlib.Algebra.BigOperators.Fin
import Mathlib.Algebra.BigOperators.Intervals

set_option maxRecDepth 16384

noncomputable section

namespace Cert.KernelIdeal.Val

open Cert.KernelIdeal Cert.KernelIdeal.Gen Cert.KernelIdeal.Hand Idealize.ShloMosaic Idealize.ShloMosaic.TcCoe Idealize.ShloMosaic.ValueIdx
open Idealize.ShloMosaic.Pipeline (Dat)

-- the TensorCore's buffer contents when the region is entered, at the extended reals
variable (V : (c : Dev nD) → (b : Ref sig .tc) → Buf (Elt Ideal) ((c : Thread nD τ).loc b))

/-! ## The three payloads of the body, read at an entry -/

/-- The reset value is zero everywhere: the zero word denotes the real number 0. -/
theorem pay1_at (j h : Fin 1024) : (k1_pay1 (F := Ideal)) (ix2 j h) = 0 := by
  unfold k1_pay1
  rw [shapeCast_self]
  show Ideal.ofBits .f32 0x00000000#32 = 0
  simp [Ideal.ofBits, Ideal.ieee]

/-- One accumulation step at entry (j, h): the accumulator's entry plus the product of column j of
    the K block with column h of the V block — the transposed K block's row j is the K block's
    column j. -/
theorem pay2_at (x0 x1 : Vec Ideal S1024x1024 .bf16) (xs : Vec Ideal S1024x1024 .f32) (j h : Fin 1024) :
    k1_pay2 x0 x1 xs (ix2 j h) = xs (ix2 j h) + ∑ r : Fin 1024, x0 (ix2 r j) * x1 (ix2 r h) := by
  unfold k1_pay2
  rw [shapeCast_self, shapeCast_self, shapeCast_self, addf_apply]
  refine congrArg (xs (ix2 j h) + ·) ?_
  refine (Cert.PlainDot.matmul_zero_apply (M := 1024) (K := 1024) (N := 1024) (φ₁ := .bf16) (φ₂ := .bf16)
    dot_S1024x1024_S1024x1024_S1024x1024_1_0_0_1_n_n rfl none
    (transpose S1024x1024 [1, 0] x0 transposes_S1024x1024_p1_0_S1024x1024) x1 j h).trans ?_
  refine Finset.sum_congr rfl fun r _ => ?_
  rw [transpose_apply [1, 0] x0 transposes_S1024x1024_p1_0_S1024x1024 (ix2 j r) (ix2 r j)
    (fun b => by match b with | ⟨0, _⟩ => rfl | ⟨1, _⟩ => rfl)]

/-- The final store's value at an entry: the accumulator's entry times 1/32 (the rounding to the
    narrower format is the identity on extended reals). -/
theorem pay3_at (xs : Vec Ideal S1024x1024 .f32) (j h : Fin 1024) :
    k1_pay3 xs (ix2 j h) = xs (ix2 j h) * Ideal.ofBits .f32 0x3D000000#32 := rfl

/-! ## The blocks of K and V, read at an entry -/

/-- The printed index maps, decided over the eight points: the K and V blocks at point t start at
    row block t and column block 0; the output's one block is the whole array. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

theorem row_lt (t : Fin cfg1.N) (r : Fin 1024) : 1024 * t.val + r.val < 8192 := by
  have := lt_of_lt_of_eq t.isLt (show cfg1.N = 8 from N_1); have := r.isLt; omega

/-- The K block and the V block at point t, as 1024×1024 arrays of extended reals. -/
abbrev kblk (c : Dev nD) (t : Fin cfg1.N) : Vec Ideal S1024x1024 .bf16 := iblk1 V c 0 t
abbrev vblk (c : Dev nD) (t : Fin cfg1.N) : Vec Ideal S1024x1024 .bf16 := iblk1 V c 1 t

/-- Row r of the K block at point t is row 1024·t + r of K. -/
theorem kblk_at (c : Dev nD) (t : Fin cfg1.N) (r j : Fin 1024) :
    kblk V c t (ix2 r j)
      = Cert.lit S8192x1024 .bf16 (V c main_v9_1) (ix2 ⟨1024 * t.val + r.val, row_lt t r⟩ j) := by
  obtain ⟨e0, e1, -⟩ := idx_facts1 t
  unfold kblk iblk1
  rw [View.read_apply]
  show V c main_v9_1 _ = V c main_v9_1 _
  congr 1
  funext a; apply Fin.ext
  match a with
  | ⟨0, _⟩ => show win1_0.index t 0 * 1024 + 1 * r.val = 1024 * t.val + r.val; rw [e0]; omega
  | ⟨1, _⟩ => show win1_0.index t 1 * 1024 + 1 * j.val = j.val; rw [e1]; omega

/-- Row r of the V block at point t is row 1024·t + r of V. -/
theorem vblk_at (c : Dev nD) (t : Fin cfg1.N) (r h : Fin 1024) :
    vblk V c t (ix2 r h)
      = Cert.lit S8192x1024 .bf16 (V c main_v9_2) (ix2 ⟨1024 * t.val + r.val, row_lt t r⟩ h) := by
  obtain ⟨-, -, e0, e1, -⟩ := idx_facts1 t
  unfold vblk iblk1
  rw [View.read_apply]
  show V c main_v9_2 _ = V c main_v9_2 _
  congr 1
  funext a; apply Fin.ext
  match a with
  | ⟨0, _⟩ => show win1_1.index t 0 * 1024 + 1 * r.val = 1024 * t.val + r.val; rw [e0]; omega
  | ⟨1, _⟩ => show win1_1.index t 1 * 1024 + 1 * h.val = h.val; rw [e1]; omega

/-! ## The accumulator in closed form -/

/-- The summand of entry (j, h) of Kᵀ·V at row m, as a function of a natural number: K(m, j)·V(m, h)
    for a row of the arrays, zero beyond the last row (never reached). -/
def term (c : Dev nD) (j h : Fin 1024) (m : ℕ) : Ideal .f32 :=
  if hm : m < 8192 then
    Cert.lit S8192x1024 .bf16 (V c main_v9_1) (ix2 ⟨m, hm⟩ j) * Cert.lit S8192x1024 .bf16 (V c main_v9_2) (ix2 ⟨m, hm⟩ h)
  else 0

/-- The product of column j of the K block with column h of the V block at point t is the sum of
    the summands over the block's 1024 rows. -/
theorem blk_sum (c : Dev nD) (t : Fin cfg1.N) (j h : Fin 1024) :
    ∑ r : Fin 1024, kblk V c t (ix2 r j) * vblk V c t (ix2 r h)
      = ∑ x ∈ Finset.range 1024, term V c j h (1024 * t.val + x) := by
  rw [Finset.sum_range]
  refine Finset.sum_congr rfl fun r _ => ?_
  rw [kblk_at, vblk_at]
  unfold term
  rw [dif_pos (row_lt t r)]

/-- After point n the accumulator's entry (j, h) is the sum of the summands over the first
    1024·(n+1) rows: by induction on the point, each point adding its block's 1024 rows. -/
theorem accAt1_at (c : Dev nD) (j h : Fin 1024) : ∀ (n : ℕ) (hn : n < cfg1.N),
    accAt1 V c n hn (ix2 j h) = ∑ m ∈ Finset.range (1024 * (n + 1)), term V c j h m
  | 0, hn => by
    show k1_pay2 (kblk V c ⟨0, hn⟩) (vblk V c ⟨0, hn⟩) (k1_pay1 (F := Ideal)) (ix2 j h) = _
    rw [pay2_at, pay1_at, zero_add, blk_sum]
    refine Finset.sum_congr rfl fun x _ => ?_
    show term V c j h (1024 * 0 + x) = term V c j h x
    rw [Nat.mul_zero, Nat.zero_add]
  | n + 1, hn => by
    show k1_pay2 (kblk V c ⟨n + 1, hn⟩) (vblk V c ⟨n + 1, hn⟩) (accAt1 V c n (Nat.lt_of_succ_lt hn)) (ix2 j h) = _
    rw [pay2_at, accAt1_at c j h n, blk_sum, show 1024 * (n + 1 + 1) = 1024 * (n + 1) + 1024 from by omega,
      Finset.sum_range_add]

/-! ## The output array after the region -/

theorem seven_lt : 7 < cfg1.N := by rw [show cfg1.N = 8 from N_1]; decide

/-- What the one write-back, at the last point, writes: the accumulator after point 7, times 1/32 —
    as contents of the output array (its one block is the whole array). -/
abbrev result (c : Dev nD) : Buf (Elt Ideal) ((c : Thread nD τ).loc main_v10) := k1_pay3 (accAt1 V c 7 seven_lt)

/-- The write-back at the last point writes it: block (0, 0) of the 1024×1024 array is the array. -/
theorem flushed1_2_eq (c : Dev nD) (t : Fin cfg1.N) (hf : (cfg1.win 2).flush t = true) :
    (dat1 V c).flushed 2 t = ((cfg1.win 2).blk t).view.read (Elt Ideal) (result V c) := by
  have h7 : t.val = 7 := by
    have := (flush1_2 t).mp hf; have := lt_of_lt_of_eq t.isLt (show cfg1.N = 8 from N_1); omega
  obtain ⟨-, -, -, -, e0, e1⟩ := idx_facts1 t
  obtain ⟨n, hn⟩ := t
  obtain rfl : n = 7 := h7
  show (cfg1.win 2).cut (grid1.coords ⟨7, hn⟩) ((dat1 V c).after 2 ⟨7, hn⟩) = _
  rw [after1_2]
  funext y
  rw [View.read_apply]
  show k1_pay3 (accAt1 V c 7 hn) y = k1_pay3 (accAt1 V c 7 seven_lt) _
  congr 1
  funext a; apply Fin.ext
  match a with
  | ⟨0, _⟩ => show (y 0).val = win1_2.index ⟨7, hn⟩ 0 * 1024 + 1 * (y 0).val; rw [e0]; omega
  | ⟨1, _⟩ => show (y 1).val = win1_2.index ⟨7, hn⟩ 1 * 1024 + 1 * (y 1).val; rw [e1]; omega

/-- So the output array ends holding it: the last point's block covers every index. -/
theorem final1_2 (c : Dev nD) : (dat1 V c).arrAt 2 cfg1.N = result V c :=
  (dat1 V c).arrAt_eq_of_cover 2 (result V c) (flushed1_2_eq V c) fun i =>
    ⟨⟨7, seven_lt⟩, (flush1_2 ⟨7, seven_lt⟩).mpr rfl, by
      obtain ⟨-, -, -, -, e0, e1⟩ := idx_facts1 ⟨7, seven_lt⟩
      show i ∈ ((View.whole main_v10).slice (win1_2.rect ⟨7, seven_lt⟩)).set
      rw [View.set_slice_whole, Rect.mem_set_unit]
      intro a
      have h0 : (i 0 : Nat) < 1024 := (i 0).isLt
      have h1 : (i 1 : Nat) < 1024 := (i 1).isLt
      match a with
      | ⟨0, _⟩ => show win1_2.index ⟨7, seven_lt⟩ 0 * 1024 ≤ (i 0 : Nat) ∧ (i 0 : Nat) < win1_2.index ⟨7, seven_lt⟩ 0 * 1024 + 1024; rw [e0]; omega
      | ⟨1, _⟩ => show win1_2.index ⟨7, seven_lt⟩ 1 * 1024 ≤ (i 1 : Nat) ∧ (i 1 : Nat) < win1_2.index ⟨7, seven_lt⟩ 1 * 1024 + 1024; rw [e1]; omega⟩

/-- THE VALUE of the region's output at entry (j, h): the sum over all 8192 rows m of K(m, j)·V(m, h),
    times 1/32. -/
theorem kv_at (c : Dev nD) (j h : Fin 1024) :
    Cert.lit S1024x1024 .bf16 ((dat1 (F := Ideal) V c).arrAt 2 cfg1.N) (ix2 j h)
      = (∑ m : Fin 8192, Cert.lit S8192x1024 .bf16 (V c main_v9_1) (ix2 m j) * Cert.lit S8192x1024 .bf16 (V c main_v9_2) (ix2 m h))
          * Ideal.ofBits .f32 0x3D000000#32 := by
  rw [final1_2]
  show k1_pay3 (accAt1 V c 7 seven_lt) (ix2 j h) = _
  rw [pay3_at, accAt1_at]
  refine congrArg (· * Ideal.ofBits .f32 0x3D000000#32) ?_
  rw [show 1024 * (7 + 1) = 8192 from rfl, Finset.sum_range]
  refine Finset.sum_congr rfl fun m _ => ?_
  unfold term
  rw [dif_pos m.isLt]

end Cert.KernelIdeal.Val

end
-- ==== Proof.V2.lean ====
import proofs.«131325_j79113297592362_1_alg».proof.Proof.Frame.KernelIdeal.R2
import proofs.«131325_j79113297592362_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.TcCoe Idealize.ShloMosaic.ValueIdx
open Idealize.SL.Sem
open Idealize.ShloMosaic.Pipeline (Dat)

-- the TensorCore's buffer contents when the stage is entered, at the ideal values
variable (V : (c : Dev nD) → (b : Ref sig .tc) → Buf (Elt Ideal) ((c : Thread nD τ).loc b))

/-! # The output projection, read entry by entry:  O[n, h] = Σ_j Q[n, j] · T[j, h]

Each grid point multiplies a band of 1024 rows of Q by T; the eight bands tile the 8192 rows, so the array the stage
leaves is the full product of Q (8192 × 1024) and T (1024 × 1024). At the ideal values a format change is the identity
and the product into a zero accumulator is the plain sum over the contracted coordinate. -/

/-- Q as the stage finds it. -/
abbrev qArr (c : Dev nD) : Vec Ideal S8192x1024 .bf16 := V c main_v9_0
/-- T as the stage finds it. -/
abbrev tArr (c : Dev nD) : Vec Ideal S1024x1024 .bf16 := V c main_v10

/-- The product Q · T, entry by entry. -/
def prodArr (c : Dev nD) : Vec Ideal S8192x1024 .f32 :=
  fun i => ∑ j : Fin 1024, qArr V c (ix2 (n0 := 8192) (n1 := 1024) (i 0) j) * tArr V c (ix2 (n0 := 1024) (n1 := 1024) j (i 1))

/-! ## One block product at an entry -/

/-- The body's stored value at entry (p, q) of the block: row p of the left block against column q of the right. -/
theorem block_product_at (x0 x1 : Vec Ideal S1024x1024 .bf16) (p q : Fin 1024) :
    k2_pay1 x0 x1 (ix2 p q) = ∑ k : Fin 1024, x0 (ix2 p k) * x1 (ix2 k q) := by
  unfold k2_pay1
  refine (Cert.PlainDot.matmul_zero_apply dot_S1024x1024_S1024x1024_S1024x1024_1_0_0_1_n_n rfl none
    (shapeCast S1024x1024 x0 shapeCasts_S1024x1024_S1024x1024) (shapeCast S1024x1024 x1 shapeCasts_S1024x1024_S1024x1024) p q).trans ?_
  rw [shapeCast_self, shapeCast_self]

/-! ## Where the blocks sit in their arrays -/

/-- The accesses start at the buffer's origin. -/
theorem origin_zero : (![0, 0] : Fin 2 → Nat) = fun _ => 0 := funext fun a => by fin_cases a <;> rfl

/-- The three index maps over the eight grid points: the Q band and the output band move down with the point, one
    block of rows per point, and never sideways; T stays put. -/
theorem band_of_point : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the band of grid point `t`, as a row of the whole array. -/
def rowOf (t : Fin cfg2.N) (p : Fin 1024) : Fin 8192 :=
  ⟨t.val * 1024 + p.val, by have h1 := t.isLt; have h2 : cfg2.N = 8 := N_2; have h3 := p.isLt; omega⟩

/-- An entry of the Q band at point `t` is the entry of Q in the band's row. -/
theorem qband_at (c : Dev nD) (t : Fin cfg2.N) (p k : Fin 1024) :
    iblk2 V c 0 t (ix2 p k) = qArr V c (ix2 (rowOf t p) k) := by
  show V c main_v9_0 (((cfg2.win 0).blk t).view.emb (ix2 p k)) = V c main_v9_0 (ix2 (rowOf t p) k)
  refine congrArg (V c main_v9_0) ?_
  obtain ⟨e0, e1, e2, e3, e4, e5⟩ := band_of_point t
  funext a; apply Fin.ext
  match a with
  | ⟨0, _⟩ => show win2_0.index t (0 : Fin 2) * 1024 + 1 * p.val = t.val * 1024 + p.val; omega
  | ⟨1, _⟩ => show win2_0.index t (1 : Fin 2) * 1024 + 1 * k.val = k.val; omega

/-- The T block is T itself at every point. -/
theorem tblock_at (c : Dev nD) (t : Fin cfg2.N) (k q : Fin 1024) :
    iblk2 V c 1 t (ix2 k q) = tArr V c (ix2 k q) := by
  show V c main_v10 (((cfg2.win 1).blk t).view.emb (ix2 k q)) = V c main_v10 (ix2 k q)
  refine congrArg (V c main_v10) ?_
  obtain ⟨e0, e1, e2, e3, e4, e5⟩ := band_of_point t
  funext a; apply Fin.ext
  match a with
  | ⟨0, _⟩ => show win2_1.index t (0 : Fin 2) * 1024 + 1 * k.val = k.val; omega
  | ⟨1, _⟩ => show win2_1.index t (1 : Fin 2) * 1024 + 1 * q.val = q.val; omega

/-- An entry of the output band at point `t` sits in the band's row of the output array. -/
theorem oband_emb (t : Fin cfg2.N) (p q : Fin 1024) :
    ((cfg2.win 2).blk t).view.emb (ix2 p q) = ix2 (rowOf t p) q := by
  obtain ⟨e0, e1, e2, e3, e4, e5⟩ := band_of_point t
  funext a; apply Fin.ext
  match a with
  | ⟨0, _⟩ => show win2_2.index t (0 : Fin 2) * 1024 + 1 * p.val = t.val * 1024 + p.val; omega
  | ⟨1, _⟩ => show win2_2.index t (1 : Fin 2) * 1024 + 1 * q.val = q.val; omega

/-! ## What a point writes back -/

/-- What grid point `t` writes back is its band of the product Q · T. -/
theorem flushed_band (c : Dev nD) (t : Fin cfg2.N) :
    (dat2 (F := Ideal) V c).flushed 2 t = ((cfg2.win 2).blk t).view.read (Elt Ideal) (prodArr V c) := by
  show (cfg2.win 2).cut (grid2.coords t) ((dat2 (F := Ideal) V c).after 2 t) = _
  rw [after2_2]
  unfold out2_2
  rw [View.canon_unit_zero origin_zero]
  simp only [View.ld_unit_zero (S := S1024x1024) origin_zero]
  funext j
  obtain ⟨p, q, rfl⟩ : ∃ (p : Fin 1024) (q : Fin 1024), j = ix2 p q := ⟨j 0, j 1, eq_ix2 j⟩
  show k2_pay1 (iblk2 V c 0 t) (iblk2 V c 1 t) (ix2 p q) = prodArr V c (((cfg2.win 2).blk t).view.emb (ix2 p q))
  rw [oband_emb]
  refine (block_product_at (iblk2 V c 0 t) (iblk2 V c 1 t) p q).trans ?_
  show _ = ∑ j : Fin 1024, qArr V c (ix2 (rowOf t p) j) * tArr V c (ix2 j q)
  refine Finset.sum_congr rfl fun k _ => ?_
  rw [qband_at, tblock_at]

/-! ## From the bands to the array -/

/-- An entry of the output array lies in point `t`'s band iff its row is one of the band's 1024 rows (and its column
    anywhere). -/
theorem mem_oband (t : Fin cfg2.N) (i : S8192x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v11).slice (win2_2.rect t)).set ↔ _
  rw [View.set_slice_whole, Rect.mem_set_unit]
  exact Iff.rfl

/-- The eight bands fill the output: row `r` lies in the band of point `r / 1024`, which is written back like every
    point's. -/
theorem bands_cover (i : S8192x1024.Idx) :
    ∃ t : Fin cfg2.N, (cfg2.win 2).flush t = true ∧ i ∈ ((cfg2.win 2).blk t).view.set := by
  have hi0 : (i 0).val < 8192 := (i 0).isLt
  have hi1 : (i 1).val < 1024 := (i 1).isLt
  have hN : cfg2.N = 8 := N_2
  obtain ⟨t, ht⟩ : ∃ t : Fin cfg2.N, t.val = (i 0).val / 1024 := ⟨⟨(i 0).val / 1024, by omega⟩, rfl⟩
  obtain ⟨e0, e1, e2, e3, e4, e5⟩ := band_of_point t
  refine ⟨t, flush2_2 t, ?_⟩
  rw [mem_oband]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The output array after the stage is the product Q · T. -/
theorem out_array (c : Dev nD) : (dat2 (F := Ideal) V c).arrAt 2 cfg2.N = prodArr V c :=
  (dat2 (F := Ideal) V c).arrAt_eq_of_cover 2 (prodArr V c) (fun t _ => flushed_band V c t) bands_cover

/-- The output array after the stage, at entry (n, h): row n of Q against column h of T. -/
theorem out_at (c : Dev nD) (n : Fin 8192) (h : Fin 1024) :
    (dat2 (F := Ideal) V c).arrAt 2 cfg2.N (ix2 n h) = ∑ j : Fin 1024, qArr V c (ix2 n j) * tArr V c (ix2 j h) := by
  rw [out_array]
  rfl

/-- The same with the two inputs known entry by entry as some Q and T. -/
theorem out_at_of (c : Dev nD) (Q : Vec Ideal S8192x1024 .bf16) (T : Vec Ideal S1024x1024 .bf16)
    (hQ : ∀ (n : Fin 8192) (j : Fin 1024), qArr V c (ix2 n j) = Q (ix2 n j))
    (hT : ∀ (j h : Fin 1024), tArr V c (ix2 j h) = T (ix2 j h)) (n : Fin 8192) (h : Fin 1024) :
    (dat2 (F := Ideal) V c).arrAt 2 cfg2.N (ix2 n h) = ∑ j : Fin 1024, Q (ix2 n j) * T (ix2 j h) := by
  rw [out_at]
  simp only [hQ, hT]

end Cert.KernelIdeal.Val

end
-- ==== Proof.HostVal.lean ====
import proofs.«131325_j79113297592362_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.ShloMosaic.ValueIdx

/-!
# What the host stretch leaves for the first kernel call, entry by entry

Before its first kernel call the program prepares the three projection weights and the three biases: each weight
matrix is transposed and then narrowed to the 16-bit float type, and each bias vector of length 1024 is viewed as a
matrix with a single row. In exact arithmetic narrowing is the identity, so a prepared weight at row `i`, column `j`
is the given weight at row `j`, column `i`; a prepared bias at `(0, j)` is the given bias at `j`, because both sit at
position `j` when the entries are counted row by row; and the activations, which no operation of the stretch writes,
are what they were. All of this holds from any starting contents `W` of the buffers.
-/

variable (W : Valuation τ sig (Elt Ideal))

/-! ## The weights: transposed, then narrowed -/

/-- The query projection's prepared weight at `(i, j)` is the given weight at `(j, i)`. -/
theorem weightQ_at (i j : Fin 1024) :
    StableHlo.after (hostOps0 (F := Ideal)) W (Proc.devRef .tc main_v1) (ix2 i j) = W (Proc.devRef .tc main_arg1) (ix2 j i) := by
  show StableHlo.after hostOps0 _ (Proc.devRef .tc main_v1) _ = _
  after_results
  -- narrowing is the identity here, so what is left is the transpose read at `(i, j)`
  exact transpose_ix2_apply _ transposes_S1024x1024_S1024x1024_1_0 i j

/-- The key projection's prepared weight at `(i, j)` is the given weight at `(j, i)`. -/
theorem weightK_at (i j : Fin 1024) :
    StableHlo.after (hostOps0 (F := Ideal)) W (Proc.devRef .tc main_v3) (ix2 i j) = W (Proc.devRef .tc main_arg3) (ix2 j i) := by
  show StableHlo.after hostOps0 _ (Proc.devRef .tc main_v3) _ = _
  after_results
  exact transpose_ix2_apply _ transposes_S1024x1024_S1024x1024_1_0 i j

/-- The value projection's prepared weight at `(i, j)` is the given weight at `(j, i)`. -/
theorem weightV_at (i j : Fin 1024) :
    StableHlo.after (hostOps0 (F := Ideal)) W (Proc.devRef .tc main_v5) (ix2 i j) = W (Proc.devRef .tc main_arg5) (ix2 j i) := by
  show StableHlo.after hostOps0 _ (Proc.devRef .tc main_v5) _ = _
  after_results
  exact transpose_ix2_apply _ transposes_S1024x1024_S1024x1024_1_0 i j

/-! ## The biases: a vector viewed as a one-row matrix -/

/-- The query projection's prepared bias at `(0, j)` is the given bias at `j`. -/
theorem biasQ_at (j : Fin 1024) :
    StableHlo.after (hostOps0 (F := Ideal)) W (Proc.devRef .tc main_v6) (ix2 0 j) = W (Proc.devRef .tc main_arg2) (ix1 j) := by
  show StableHlo.after hostOps0 _ (Proc.devRef .tc main_v6) _ = _
  after_results
  -- entry `(0, j)` of the one-row matrix and entry `j` of the vector are both the `j`-th entry in row-major order
  exact shapeCast_a_1a_apply _ shapeCasts_S1024_S1x1024 0 j

/-- The key projection's prepared bias at `(0, j)` is the given bias at `j`. -/
theorem biasK_at (j : Fin 1024) :
    StableHlo.after (hostOps0 (F := Ideal)) W (Proc.devRef .tc main_v7) (ix2 0 j) = W (Proc.devRef .tc main_arg4) (ix1 j) := by
  show StableHlo.after hostOps0 _ (Proc.devRef .tc main_v7) _ = _
  after_results
  exact shapeCast_a_1a_apply _ shapeCasts_S1024_S1x1024 0 j

/-- The value projection's prepared bias at `(0, j)` is the given bias at `j`. -/
theorem biasV_at (j : Fin 1024) :
    StableHlo.after (hostOps0 (F := Ideal)) W (Proc.devRef .tc main_v8) (ix2 0 j) = W (Proc.devRef .tc main_arg6) (ix1 j) := by
  show StableHlo.after hostOps0 _ (Proc.devRef .tc main_v8) _ = _
  after_results
  exact shapeCast_a_1a_apply _ shapeCasts_S1024_S1x1024 0 j

/-! ## The activations: untouched -/

/-- No operation of the stretch writes the activations, so they are what they were. -/
theorem input_kept :
    StableHlo.after (hostOps0 (F := Ideal)) W (Proc.devRef .tc main_arg0) = W (Proc.devRef .tc main_arg0) := by
  show StableHlo.after hostOps0 _ (Proc.devRef .tc main_arg0) = _
  after_results

end Cert.KernelIdeal.Val

end
-- ==== Proof.Spec.lean ====
/-
  What both programs compute, entry by entry, over the extended reals.

  A linear layer's output at row `n`, column `j` is the inner product of row `n` of the input with row `j` of the
  weight matrix, plus the bias at `j` (the weight matrix is used transposed). With `q`, `k`, `v` three such
  layers' outputs of one input, the result at `(n, h)` is `∑ m, ((∑ j, q n j * k m j) / 32) * v m h`: scores
  of row `n` against every row `m`, scaled by `1 / √1024 = 1 / 32`, then contracted with `v`.

  The same number is `∑ j, q n j * ((∑ m, k m j * v m h) * (1 / 32))`: the `1024 × 1024` matrix `kᵀ v` is formed
  first and scaled, and `q` is multiplied by it afterwards. The two arrangements agree whenever every entry of
  `q`, `k`, `v` is a real number (exchange of the two finite sums and distributivity, which the extended reals
  have only away from the infinities).
-/
import Idealize.ShloMosaic.Lib.ValueIdx
import Idealize.ShloMosaic.PureOps.Ideal
import Mathlib.Algebra.BigOperators.Fin

noncomputable section

namespace Cert.Spec

open Idealize.ShloMosaic Idealize.ShloMosaic.ValueIdx

/-- The input's shape: 8192 rows of 1024 features. -/
abbrev XS : Shape := ⟨2, ![8192, 1024]⟩
/-- A weight matrix's shape. -/
abbrev WS : Shape := ⟨2, ![1024, 1024]⟩
/-- A bias vector's shape. -/
abbrev BS : Shape := ⟨1, ![1024]⟩

/-- Entry `(n, j)` of a linear layer: row `n` of `x` against row `j` of `W`, plus `b j`. -/
def lin (x : XS.Idx → EReal) (W : WS.Idx → EReal) (b : BS.Idx → EReal) (n : Fin 8192) (j : Fin 1024) : EReal :=
  (∑ i : Fin 1024, x (ix2 n i) * W (ix2 j i)) + b (ix1 j)

/-- Scores first: `∑ m, ((∑ j, q n j * k m j) / 32) * v m h`. -/
def scoresFirst (q k v : Fin 8192 → Fin 1024 → EReal) (n : Fin 8192) (h : Fin 1024) : EReal :=
  ∑ m : Fin 8192, Ideal.div (∑ j : Fin 1024, q n j * k m j) ((32 : ℝ) : EReal) * v m h

/-- Keys against values first: `∑ j, q n j * ((∑ m, k m j * v m h) * (1 / 32))`. -/
def keysValuesFirst (q k v : Fin 8192 → Fin 1024 → EReal) (n : Fin 8192) (h : Fin 1024) : EReal :=
  ∑ j : Fin 1024, q n j * ((∑ m : Fin 8192, k m j * v m h) * ((1 / 32 : ℝ) : EReal))

/-- An extended real that is a real number. -/
def IsReal (x : EReal) : Prop := ∃ r : ℝ, x = (r : EReal)

end Cert.Spec

end
-- ==== Proof.Consts.lean ====
/-
  The float words the two programs spell, as the extended reals they denote.

  Three words occur: `+0.0` (the zero an accumulator starts from), `0x3D000000` (sign 0, exponent field 122, empty
  fraction: `2 ^ (122 - 127) = 1 / 32`, the scale the kernel multiplies by) and `0x44800000` (exponent field 137, empty
  fraction: `2 ^ 10 = 1024`, the number whose square root the reference divides by). The square root of `1024` is `32`
  because `32 * 32 = 1024` and `32` is not negative.
-/
import Idealize.ShloMosaic.PureOps.Ideal

noncomputable section

namespace Cert.Consts

open Idealize.ShloMosaic

/-- The word `+0.0` denotes `0`. -/
theorem ofBits_zero : Ideal.ofBits .f32 0x00000000#32 = 0 := by
  simp [Ideal.ofBits, Ideal.ieee]

/-- The word `0x3D000000` denotes `1 / 32`. -/
theorem ofBits_inv32 : Ideal.ofBits .f32 0x3D000000#32 = ((1 / 32 : ℝ) : EReal) := by
  simp [Ideal.ofBits, Ideal.ieee, -EReal.coe_mul]; norm_num

/-- The word `0x44800000` denotes `1024`. -/
theorem ofBits_1024 : Ideal.ofBits .f32 0x44800000#32 = ((1024 : ℝ) : EReal) := by
  simp [Ideal.ofBits, Ideal.ieee, -EReal.coe_mul]; norm_num

/-- The real square root of `1024` is `32`. -/
theorem real_sqrt_1024 : Real.sqrt 1024 = 32 := by
  rw [show (1024 : ℝ) = 32 * 32 by norm_num]
  exact Real.sqrt_mul_self (by norm_num)

/-- The square root of the word `1024.0`, on the extended reals, is `32`. -/
theorem sqrt_1024 : Ideal.sqrt (Ideal.ofBits .f32 0x44800000#32) = ((32 : ℝ) : EReal) := by
  rw [ofBits_1024, Ideal.sqrt_coe, if_neg (by norm_num), real_sqrt_1024]

end Cert.Consts

end
-- ==== Proof.Chain.lean ====
/-
  The idealized kernel's result, entry by entry, as a function of the argument arrays.

  The first region's three output arrays are the three linear layers of the input: its weight windows hold the
  transposed weight matrices and its bias windows the biases as rows, so entry `(n, j)` of each is row `n` of the
  input against row `j` of the weight matrix, plus the bias at `j`. The second region reads the second and third of
  them and leaves `(∑ m, k m j * v m h) * (1 / 32)` at `(j, h)`; the third reads the first and that matrix and leaves
  their product. So the result at `(n, h)` is `∑ j, q n j * ((∑ m, k m j * v m h) * (1 / 32))`.
-/
import proofs.«131325_j79113297592362_1_alg».proof.Proof.Frame.KernelIdeal.Run
import proofs.«131325_j79113297592362_1_alg».proof.Proof.Typed
import proofs.«131325_j79113297592362_1_alg».proof.Proof.V0
import proofs.«131325_j79113297592362_1_alg».proof.Proof.V1
import proofs.«131325_j79113297592362_1_alg».proof.Proof.V2
import proofs.«131325_j79113297592362_1_alg».proof.Proof.HostVal
import proofs.«131325_j79113297592362_1_alg».proof.Proof.Spec
import proofs.«131325_j79113297592362_1_alg».proof.Proof.Consts

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Cert.Spec

variable (m : (ℓ : Loc nD τ sig) → Buf (Elt Ideal) ℓ) (ρ : Dev nD → PrngReg) (c : Dev nD)

/-- The seven argument arrays on core `c`: the input, then a weight matrix and a bias for each of the three layers. -/
abbrev argX : XS.Idx → EReal := m ((c : Thread nD τ).loc main_arg0)
abbrev argWq : WS.Idx → EReal := m ((c : Thread nD τ).loc main_arg1)
abbrev argBq : BS.Idx → EReal := m ((c : Thread nD τ).loc main_arg2)
abbrev argWk : WS.Idx → EReal := m ((c : Thread nD τ).loc main_arg3)
abbrev argBk : BS.Idx → EReal := m ((c : Thread nD τ).loc main_arg4)
abbrev argWv : WS.Idx → EReal := m ((c : Thread nD τ).loc main_arg5)
abbrev argBv : BS.Idx → EReal := m ((c : Thread nD τ).loc main_arg6)

/-- One layer's entry from what the first region's windows hold: the input as launched, the weight matrix transposed,
    the bias as a row. -/
theorem layer_eq (x : XS.Idx → EReal) (W : WS.Idx → EReal) (b : BS.Idx → EReal)
    (x' : XS.Idx → EReal) (Wt : WS.Idx → EReal) (brow : (⟨2, ![1, 1024]⟩ : Shape).Idx → EReal)
    (hx : ∀ i, x' i = x i) (hW : ∀ i j : Fin 1024, Wt (ix2 i j) = W (ix2 j i)) (hb : ∀ j : Fin 1024, brow (ix2 0 j) = b (ix1 j))
    (n : Fin 8192) (j : Fin 1024) :
    (∑ i : Fin 1024, x' (ix2 n i) * Wt (ix2 i j)) + brow (ix2 0 j) = lin x W b n j := by
  unfold lin
  rw [hb j]
  exact congrArg (· + b (ix1 j)) (Finset.sum_congr rfl fun i _ => by rw [hx, hW])

/-- The first layer's output, as the third region finds it: the second region does not touch it. -/
theorem queries_at (n : Fin 8192) (j : Fin 1024) :
    Cert.lit S8192x1024 .bf16 (V3 m ρ c main_v9_0) (ix2 n j) = lin (argX m c) (argWq m c) (argBq m c) n j := by
  have e : V3 m ρ c main_v9_0 = (dat0 (V1 m ρ) c).arrAt 7 cfg0.N :=
    (hrest1 m ρ c main_v9_0 (by decide)).trans (hF0 m ρ c 7).symm
  refine (congrFun (e : Cert.lit S8192x1024 .bf16 (V3 m ρ c main_v9_0) = Cert.lit S8192x1024 .bf16 ((dat0 (V1 m ρ) c).arrAt 7 cfg0.N)) (ix2 n j)).trans ?_
  refine (proj_q_at (V1 m ρ) c n j).trans ?_
  exact layer_eq (argX m c) (argWq m c) (argBq m c) _ _ _
    (fun i => congrFun (input_kept (W0 m ρ c)) i) (fun i j => weightQ_at (W0 m ρ c) i j) (fun j => biasQ_at (W0 m ρ c) j) n j

/-- The second layer's output, as the second region finds it. -/
theorem keys_at (n : Fin 8192) (j : Fin 1024) :
    Cert.lit S8192x1024 .bf16 (V2 m ρ c main_v9_1) (ix2 n j) = lin (argX m c) (argWk m c) (argBk m c) n j := by
  have e : V2 m ρ c main_v9_1 = (dat0 (V1 m ρ) c).arrAt 8 cfg0.N := (hF0 m ρ c 8).symm
  refine (congrFun (e : Cert.lit S8192x1024 .bf16 (V2 m ρ c main_v9_1) = Cert.lit S8192x1024 .bf16 ((dat0 (V1 m ρ) c).arrAt 8 cfg0.N)) (ix2 n j)).trans ?_
  refine (proj_k_at (V1 m ρ) c n j).trans ?_
  exact layer_eq (argX m c) (argWk m c) (argBk m c) _ _ _
    (fun i => congrFun (input_kept (W0 m ρ c)) i) (fun i j => weightK_at (W0 m ρ c) i j) (fun j => biasK_at (W0 m ρ c) j) n j

/-- The third layer's output, as the second region finds it. -/
theorem values_at (n : Fin 8192) (j : Fin 1024) :
    Cert.lit S8192x1024 .bf16 (V2 m ρ c main_v9_2) (ix2 n j) = lin (argX m c) (argWv m c) (argBv m c) n j := by
  have e : V2 m ρ c main_v9_2 = (dat0 (V1 m ρ) c).arrAt 9 cfg0.N := (hF0 m ρ c 9).symm
  refine (congrFun (e : Cert.lit S8192x1024 .bf16 (V2 m ρ c main_v9_2) = Cert.lit S8192x1024 .bf16 ((dat0 (V1 m ρ) c).arrAt 9 cfg0.N)) (ix2 n j)).trans ?_
  refine (proj_v_at (V1 m ρ) c n j).trans ?_
  exact layer_eq (argX m c) (argWv m c) (argBv m c) _ _ _
    (fun i => congrFun (input_kept (W0 m ρ c)) i) (fun i j => weightV_at (W0 m ρ c) i j) (fun j => biasV_at (W0 m ρ c) j) n j

/-- What the second region leaves for the third: keys against values, scaled by `1 / 32`. -/
theorem keysValues_at (j h : Fin 1024) :
    Cert.lit S1024x1024 .bf16 (V3 m ρ c main_v10) (ix2 j h)
      = (∑ r : Fin 8192, lin (argX m c) (argWk m c) (argBk m c) r j * lin (argX m c) (argWv m c) (argBv m c) r h)
          * ((1 / 32 : ℝ) : EReal) := by
  have e : V3 m ρ c main_v10 = (dat1 (V2 m ρ) c).arrAt 2 cfg1.N := (hF1 m ρ c 2).symm
  refine (congrFun (e : Cert.lit S1024x1024 .bf16 (V3 m ρ c main_v10) = Cert.lit S1024x1024 .bf16 ((dat1 (V2 m ρ) c).arrAt 2 cfg1.N)) (ix2 j h)).trans ?_
  refine (kv_at (V2 m ρ) c j h).trans ?_
  rw [Cert.Consts.ofBits_inv32]
  exact congrArg (· * ((1 / 32 : ℝ) : EReal))
    (Finset.sum_congr rfl fun r _ => by rw [keys_at m ρ c r j, values_at m ρ c r h])

/-- The result array after the run, entry by entry. -/
theorem result_at (n : Fin 8192) (h : Fin 1024) :
    Cert.lit S8192x1024 .f32 ((dat2 (V3 m ρ) c).arrAt 2 cfg2.N) (ix2 n h)
      = keysValuesFirst (lin (argX m c) (argWq m c) (argBq m c)) (lin (argX m c) (argWk m c) (argBk m c))
          (lin (argX m c) (argWv m c) (argBv m c)) n h := by
  refine (out_at_of (V3 m ρ) c
    (fun i => lin (argX m c) (argWq m c) (argBq m c) (i 0) (i 1))
    (fun i => (∑ r : Fin 8192, lin (argX m c) (argWk m c) (argBk m c) r (i 0) * lin (argX m c) (argWv m c) (argBv m c) r (i 1)) * ((1 / 32 : ℝ) : EReal))
    (fun n j => queries_at m ρ c n j) (fun j h => keysValues_at m ρ c j h) n h).trans ?_
  rfl

end Cert.KernelIdeal.Val

end
-- ==== Proof.RefValue.lean ====
/-
  The reference program's result, read one entry at a time, over the extended reals.

  The reference forms three linear layers of one input — each the input times a transposed weight matrix plus a
  bias spread over the rows — then the full table of scores of every row of the first layer against every row of
  the second, divides each score by the square root of `1024`, and multiplies the scaled table by the third layer.
  Read at one output entry `(n, h)` this is a sum over the 8192 rows `m` of (the score of `n` against `m`, over `32`)
  times the third layer at `(m, h)`. No table is ever formed here: each product is read at a symbolic entry as a
  finite sum, each transposition as a swap of the two coordinates, each spreading of a bias as a read of the bias.
-/
import proofs.«131325_j79113297592362_1_alg».proof.Proof.Gen.ReferenceIdeal.Read
import proofs.«131325_j79113297592362_1_alg».proof.Proof.Spec
import proofs.«131325_j79113297592362_1_alg».proof.Proof.LibPlainDot
import proofs.«131325_j79113297592362_1_alg».proof.Proof.Consts

noncomputable section

namespace Cert.RefValue

open Idealize.ShloMosaic Idealize.ShloMosaic.ValueIdx Cert.ReferenceIdeal Cert.ReferenceIdeal.Gen Cert.ReferenceIdeal.Read

/-- A transposed weight matrix at `(i, j)` is the matrix at `(j, i)`. -/
theorem weightTransposed_at (W : FVec Ideal S1024x1024 .f32) (i j : Fin 1024) :
    transpose S1024x1024 [1, 0] W transposes_S1024x1024_S1024x1024_1_0 (ix2 i j) = W (ix2 j i) :=
  transpose_apply [1, 0] W transposes_S1024x1024_S1024x1024_1_0 (ix2 i j) (ix2 j i) (fun b => match b with
    | ⟨0, _⟩ => rfl
    | ⟨1, _⟩ => rfl)

/-- A bias spread first to one row and then over all 8192 rows, at `(n, j)`, is the bias at `j`. -/
theorem biasSpread_at (b : FVec Ideal S1024 .f32) (n : Fin 8192) (j : Fin 1024) :
    broadcastInDim S8192x1024 ![0, 1] bcast_S1x1024_S8192x1024_0_1
      (broadcastInDim S1x1024 ![1] bcast_S1024_S1x1024_1 b) (ix2 n j) = b (ix1 j) := by
  rw [broadcastInDim_apply _ bcast_S1x1024_S8192x1024_0_1 _ (ix2 n j) (ix2 (0 : Fin 1) j) (fun a => match a with
    | ⟨0, _⟩ => by show 0 = if (1 : Nat) = 1 then 0 else n.val; rw [if_pos rfl]
    | ⟨1, _⟩ => by show j.val = if (1024 : Nat) = 1 then 0 else j.val; rw [if_neg (by decide)])]
  exact broadcastInDim_apply _ bcast_S1024_S1x1024_1 b (ix2 (0 : Fin 1) j) (ix1 j) (fun a => match a with
    | ⟨0, _⟩ => by show j.val = if (1024 : Nat) = 1 then 0 else j.val; rw [if_neg (by decide)])

/-- One linear layer of the reference — the input times the transposed weights, plus the spread bias — at
    `(n, j)` is row `n` of the input against row `j` of the weights, plus the bias at `j`. -/
theorem linearLayer_at (x : FVec Ideal S8192x1024 .f32) (W : FVec Ideal S1024x1024 .f32) (b : FVec Ideal S1024 .f32)
    (n : Fin 8192) (j : Fin 1024) :
    addf (Host.dotGeneral dot_S8192x1024_S1024x1024_S8192x1024_1_0_0_1_n_n none x
        (transpose S1024x1024 [1, 0] W transposes_S1024x1024_S1024x1024_1_0))
      (broadcastInDim S8192x1024 ![0, 1] bcast_S1x1024_S8192x1024_0_1
        (broadcastInDim S1x1024 ![1] bcast_S1024_S1x1024_1 b)) (ix2 n j)
      = Cert.Spec.lin x W b n j := by
  show FloatOps.addf (Host.dotGeneral dot_S8192x1024_S1024x1024_S8192x1024_1_0_0_1_n_n none x
        (transpose S1024x1024 [1, 0] W transposes_S1024x1024_S1024x1024_1_0) (ix2 n j))
      (broadcastInDim S8192x1024 ![0, 1] bcast_S1x1024_S8192x1024_0_1
        (broadcastInDim S1x1024 ![1] bcast_S1024_S1x1024_1 b) (ix2 n j)) = _
  rw [Ideal.addf_def, biasSpread_at, Cert.PlainDot.dotGeneral_apply dot_S8192x1024_S1024x1024_S8192x1024_1_0_0_1_n_n rfl]
  unfold Cert.Spec.lin
  refine congrArg (· + b (ix1 j)) (Finset.sum_congr rfl fun i _ => ?_)
  rw [weightTransposed_at]

/-- The first layer (queries) at `(n, j)`. -/
theorem queries_at (x0 : FVec Ideal S8192x1024 .f32) (x1 : FVec Ideal S1024x1024 .f32) (x2 : FVec Ideal S1024 .f32)
    (n : Fin 8192) (j : Fin 1024) :
    val_main_v4 (F := Ideal) x0 x1 x2 (ix2 n j) = Cert.Spec.lin x0 x1 x2 n j :=
  linearLayer_at x0 x1 x2 n j

/-- The second layer (keys) at `(m, j)`. -/
theorem keys_at (x0 : FVec Ideal S8192x1024 .f32) (x3 : FVec Ideal S1024x1024 .f32) (x4 : FVec Ideal S1024 .f32)
    (m : Fin 8192) (j : Fin 1024) :
    val_main_v9 (F := Ideal) x0 x3 x4 (ix2 m j) = Cert.Spec.lin x0 x3 x4 m j :=
  linearLayer_at x0 x3 x4 m j

/-- The third layer (values) at `(m, h)`. -/
theorem values_at (x0 : FVec Ideal S8192x1024 .f32) (x5 : FVec Ideal S1024x1024 .f32) (x6 : FVec Ideal S1024 .f32)
    (m : Fin 8192) (h : Fin 1024) :
    val_main_v14 (F := Ideal) x0 x5 x6 (ix2 m h) = Cert.Spec.lin x0 x5 x6 m h :=
  linearLayer_at x0 x5 x6 m h

/-- The transposed keys at `(j, m)` are the keys at `(m, j)`. -/
theorem keysTransposed_at (x0 : FVec Ideal S8192x1024 .f32) (x3 : FVec Ideal S1024x1024 .f32) (x4 : FVec Ideal S1024 .f32)
    (j : Fin 1024) (m : Fin 8192) :
    val_main_v16 (F := Ideal) x0 x3 x4 (ix2 j m) = Cert.Spec.lin x0 x3 x4 m j := by
  unfold val_main_v16
  rw [transpose_apply [1, 0] (val_main_v9 (F := Ideal) x0 x3 x4) transposes_S8192x1024_S1024x8192_1_0 (ix2 j m) (ix2 m j)
    (fun b => match b with
      | ⟨0, _⟩ => rfl
      | ⟨1, _⟩ => rfl)]
  exact keys_at x0 x3 x4 m j

/-- The unscaled score of row `n` against row `m`: the queries' row `n` against the keys' row `m`. -/
theorem scores_at (x0 : FVec Ideal S8192x1024 .f32) (x1 : FVec Ideal S1024x1024 .f32) (x2 : FVec Ideal S1024 .f32)
    (x3 : FVec Ideal S1024x1024 .f32) (x4 : FVec Ideal S1024 .f32) (n m : Fin 8192) :
    val_main_v17 (F := Ideal) x0 x1 x2 x3 x4 (ix2 n m)
      = ∑ j : Fin 1024, Cert.Spec.lin x0 x1 x2 n j * Cert.Spec.lin x0 x3 x4 m j := by
  unfold val_main_v17
  rw [Cert.PlainDot.dotGeneral_apply dot_S8192x1024_S1024x8192_S8192x8192_1_0_0_1_n_n rfl]
  refine Finset.sum_congr rfl fun j _ => ?_
  rw [queries_at, keysTransposed_at]

/-- The divisor, at every entry of the score table, is `32`: the square root of the constant `1024`, spread. -/
theorem divisor_at (i : S8192x8192.Idx) : val_main_v18 (F := Ideal) i = ((32 : ℝ) : EReal) := by
  rw [val_main_v18_apply, val_main_v15_apply, val_main_cst_apply, Ideal.hostUnary_sqrt_def, Ideal.ofBits_def,
    Cert.Consts.sqrt_1024]

/-- The scaled score of row `n` against row `m`. -/
theorem scaledScores_at (x0 : FVec Ideal S8192x1024 .f32) (x1 : FVec Ideal S1024x1024 .f32) (x2 : FVec Ideal S1024 .f32)
    (x3 : FVec Ideal S1024x1024 .f32) (x4 : FVec Ideal S1024 .f32) (n m : Fin 8192) :
    val_main_v19 (F := Ideal) x0 x1 x2 x3 x4 (ix2 n m)
      = Ideal.div (∑ j : Fin 1024, Cert.Spec.lin x0 x1 x2 n j * Cert.Spec.lin x0 x3 x4 m j) ((32 : ℝ) : EReal) := by
  rw [val_main_v19_apply, Ideal.hostDivf_def, scores_at, divisor_at]

/-- The reference's result at `(n, h)`: the scaled scores of row `n` against every row `m`, each times the values at
    `(m, h)`, summed over `m`. -/
theorem reference_at (x0 : FVec Ideal S8192x1024 .f32) (x1 : FVec Ideal S1024x1024 .f32) (x2 : FVec Ideal S1024 .f32)
    (x3 : FVec Ideal S1024x1024 .f32) (x4 : FVec Ideal S1024 .f32) (x5 : FVec Ideal S1024x1024 .f32)
    (x6 : FVec Ideal S1024 .f32) (n : Fin 8192) (h : Fin 1024) :
    val_main_v20 (F := Ideal) x0 x1 x2 x3 x4 x5 x6 (ix2 n h)
      = Cert.Spec.scoresFirst (Cert.Spec.lin x0 x1 x2) (Cert.Spec.lin x0 x3 x4) (Cert.Spec.lin x0 x5 x6) n h := by
  unfold val_main_v20
  rw [Cert.PlainDot.dotGeneral_apply dot_S8192x8192_S8192x1024_S8192x1024_1_0_0_1_n_n rfl]
  unfold Cert.Spec.scoresFirst
  refine Finset.sum_congr rfl fun m _ => ?_
  rw [scaledScores_at, values_at]

end Cert.RefValue

end
-- ==== Proof.Algebra.lean ====
/-
  Arithmetic of extended reals that happen to be real numbers.

  The extended reals are not a ring: distributivity fails at the infinities. Every fact here therefore first
  names real witnesses for the entries, moves the whole expression inside the coercion from the reals, and does
  the algebra there, where finite sums can be exchanged and products distributed freely.
-/
import proofs.«131325_j79113297592362_1_alg».proof.Proof.Spec
import Mathlib.Data.EReal.Basic
import Mathlib.Data.EReal.Operations
import Mathlib.Algebra.BigOperators.Ring.Finset

noncomputable section

namespace Cert.Algebra

open Idealize.ShloMosaic Cert.Spec

/-- The coercion from the reals commutes with finite sums. -/
theorem coe_finsum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A finite sum of real numbers is a real number. -/
theorem sum_isReal {ι : Type*} (s : Finset ι) (f : ι → EReal) (hf : ∀ i ∈ s, IsReal (f i)) :
    IsReal (∑ i ∈ s, f i) := by
  classical
  refine ⟨∑ i ∈ s, (f i).toReal, ?_⟩
  rw [coe_finsum]
  refine Finset.sum_congr rfl ?_
  intro i hi
  obtain ⟨r, hr⟩ := hf i hi
  rw [hr, EReal.toReal_coe]

/-- A product of two real numbers is a real number. -/
theorem mul_isReal {a b : EReal} (ha : IsReal a) (hb : IsReal b) : IsReal (a * b) := by
  obtain ⟨r, rfl⟩ := ha
  obtain ⟨t, rfl⟩ := hb
  exact ⟨r * t, (EReal.coe_mul r t).symm⟩

/-- A sum of two real numbers is a real number. -/
theorem add_isReal {a b : EReal} (ha : IsReal a) (hb : IsReal b) : IsReal (a + b) := by
  obtain ⟨r, rfl⟩ := ha
  obtain ⟨t, rfl⟩ := hb
  exact ⟨r + t, (EReal.coe_add r t).symm⟩

/-- Every entry of a linear layer with real input, weights and bias is real. -/
theorem lin_isReal (x : XS.Idx → EReal) (W : WS.Idx → EReal) (b : BS.Idx → EReal)
    (hx : ∀ i, IsReal (x i)) (hW : ∀ i, IsReal (W i)) (hb : ∀ i, IsReal (b i))
    (n : Fin 8192) (j : Fin 1024) : IsReal (lin x W b n j) := by
  unfold lin
  exact add_isReal (sum_isReal _ _ fun i _ => mul_isReal (hx _) (hW _)) (hb _)

/-- Over the reals: contracting `q` with the scaled matrix `kᵀ v` equals contracting the scaled scores
`q kᵀ` with `v`. Both are the double sum of `q j * k m j * v m * c`, taken in the two orders. -/
theorem exchange_real {M J : Type*} [Fintype M] [Fintype J]
    (q : J → ℝ) (k : M → J → ℝ) (v : M → ℝ) (c : ℝ) :
    ∑ j, q j * ((∑ m, k m j * v m) * c) = ∑ m, ((∑ j, q j * k m j) * c) * v m := by
  simp only [Finset.sum_mul, Finset.mul_sum]
  rw [Finset.sum_comm]
  refine Finset.sum_congr rfl fun m _ => Finset.sum_congr rfl fun j _ => ?_
  ring

/-- The same exchange for extended reals that are coercions of reals, with the division by `32` of the
scores on one side and the multiplication by `1 / 32` of `kᵀ v` on the other. -/
theorem exchange_coe {M J : Type*} [Fintype M] [Fintype J]
    (q : J → ℝ) (k : M → J → ℝ) (v : M → ℝ) :
    ∑ j, (q j : EReal) * ((∑ m, (k m j : EReal) * (v m : EReal)) * ((1 / 32 : ℝ) : EReal))
      = ∑ m, Ideal.div (∑ j, (q j : EReal) * (k m j : EReal)) ((32 : ℝ) : EReal) * (v m : EReal) := by
  have h32 : (32 : ℝ) ≠ 0 := by norm_num
  simp only [Ideal.div_coe h32, ← EReal.coe_mul, ← coe_finsum]
  exact congrArg _ (exchange_real q k v (1 / 32))

/-- With real entries the two arrangements of the attention product give the same number. -/
theorem arrangements_agree (q k v : Fin 8192 → Fin 1024 → EReal)
    (hq : ∀ n j, IsReal (q n j)) (hk : ∀ n j, IsReal (k n j)) (hv : ∀ n j, IsReal (v n j))
    (n : Fin 8192) (h : Fin 1024) : keysValuesFirst q k v n h = scoresFirst q k v n h := by
  choose Q hQ using hq
  choose K hK using hk
  choose V hV using hv
  unfold keysValuesFirst scoresFirst
  simp only [hQ, hK, hV]
  exact exchange_coe (fun j => Q n j) (fun m j => K m j) (fun m => V m h)

end Cert.Algebra

end
-- ==== Proof.Finite.lean ====
/-
  From the certificate's precondition to "every entry of every input array is a real number".

  The precondition is the conjunction, over the seven float arrays, of "every entry `x` satisfies `|x| < +∞`",
  where `|x|` is `max x (-x)` in the extended reals and `+∞` is what the bit pattern `0x7F800000` denotes.
  An extended real with `max x (-x) < ⊤` is neither `⊤` (then `max x (-x) = ⊤`) nor `⊥` (then `-x = ⊤`), so it
  is the image of a real number. The conjunction is a chain of one-bit `and`s, each of which is 1 exactly when both
  its operands are; each conjunct is an `and`-reduction over a whole array, which is 1 only if every element is.
-/
import proofs.«131325_j79113297592362_1_alg».proof.Defs
import proofs.«131325_j79113297592362_1_alg».proof.Proof.Spec
import Idealize.ShloMosaic.Lib.ReduceAll
import Mathlib.Data.EReal.Basic

noncomputable section

namespace Cert.Finite

open Idealize.ShloMosaic Idealize.ShloMosaic.TcCoe Idealize.SL.Sem

/-- The rank-zero shape has exactly one index. -/
instance : Subsingleton Cert.Pre_finite_inputs.S_.Idx := ⟨fun a b => funext fun d => d.elim0⟩

/-- The pattern `0x7F800000` (sign 0, exponent all ones, fraction 0) denotes `+∞`. -/
theorem inf_pattern : Ideal.ofBits .f32 0x7F800000#32 = (⊤ : EReal) := by
  simp [Ideal.ofBits, Ideal.ieee]

/-- An extended real whose absolute value `max x (-x)` is strictly below `+∞` is a real number. -/
theorem isReal_of_abs_lt_top (x : EReal) (h : max x (-x) < ⊤) : Cert.Spec.IsReal x := by
  induction x using EReal.rec with
  | bot => simp at h
  | coe r => exact ⟨r, rfl⟩
  | top => simp at h

/-- The comparison bit `|x| < +∞` being 1 makes `x` a real number. -/
theorem isReal_of_cmp (x : EReal)
    (h : Ideal.cmp .olt (max x (-x)) (Ideal.ofBits .f32 0x7F800000#32) = 1#1) : Cert.Spec.IsReal x := by
  rw [inf_pattern] at h
  refine isReal_of_abs_lt_top x ?_
  by_contra hn
  simp [Ideal.cmp, hn] at h

/-- One array's conjunct: if the `and`-reduction of the bits `|x i| < +∞` over the whole array is 1, every entry
    of the array is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) :
    ∀ i, Cert.Spec.IsReal (x i) := by
  intro i
  have hi := Host.reduce_andi_all _ _ hr hu ValueIdx.ix0 e i
  exact isReal_of_cmp (x i) hi

/-- A one-bit `and` of two one-element arrays, read at the element. -/
theorem andi_at {s : Shape} (a b : IVec s 1) (j : s.Idx) : andi a b j = IntOp.andi (a j) (b j) := rfl

/-- Under the precondition, on every device, every entry of each of the seven input arrays (one of shape 8192 × 1024, then
    three pairs of a 1024 × 1024 array and a 1024 array) is a real number. -/
theorem inputs_real [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
      (∀ i, Cert.Spec.IsReal (m ((c.tc : Thread Cert.KernelIdeal.nD Cert.KernelIdeal.τ).loc Cert.KernelIdeal.main_arg0) i))
    ∧ (∀ i, Cert.Spec.IsReal (m ((c.tc : Thread Cert.KernelIdeal.nD Cert.KernelIdeal.τ).loc Cert.KernelIdeal.main_arg1) i))
    ∧ (∀ i, Cert.Spec.IsReal (m ((c.tc : Thread Cert.KernelIdeal.nD Cert.KernelIdeal.τ).loc Cert.KernelIdeal.main_arg2) i))
    ∧ (∀ i, Cert.Spec.IsReal (m ((c.tc : Thread Cert.KernelIdeal.nD Cert.KernelIdeal.τ).loc Cert.KernelIdeal.main_arg3) i))
    ∧ (∀ i, Cert.Spec.IsReal (m ((c.tc : Thread Cert.KernelIdeal.nD Cert.KernelIdeal.τ).loc Cert.KernelIdeal.main_arg4) i))
    ∧ (∀ i, Cert.Spec.IsReal (m ((c.tc : Thread Cert.KernelIdeal.nD Cert.KernelIdeal.τ).loc Cert.KernelIdeal.main_arg5) i))
    ∧ (∀ i, Cert.Spec.IsReal (m ((c.tc : Thread Cert.KernelIdeal.nD Cert.KernelIdeal.τ).loc Cert.KernelIdeal.main_arg6) i)) := by
  have h := congrFun (hpre c) ValueIdx.ix0
  dsimp only [Cert.Pre_finite_inputs.fn, Cert.Pre_finite_inputs.fn_part1] at h
  simp only [andi_at, IntOp.andi_eq_one] at h
  obtain ⟨⟨⟨⟨⟨⟨h0, h1⟩, h2⟩, h3⟩, h4⟩, h5⟩, h6⟩ := h
  exact ⟨all_real _ _ _ _ h0, all_real _ _ _ _ h1, all_real _ _ _ _ h2, all_real _ _ _ _ h3,
    all_real _ _ _ _ h4, all_real _ _ _ _ h5, all_real _ _ _ _ h6⟩

end Cert.Finite

end
-- ==== Proof.lean ====
/-
  Self-attention without a softmax over 8192 rows of 1024 features: three linear layers `q`, `k`, `v` of one input,
  then `((q kᵀ) / √1024) v`.

  The reference forms the 8192 × 8192 score matrix, divides it by `√1024 = 32` and multiplies by `v`. The kernel
  never forms it: because there is nothing between the two products, `(q kᵀ) v = q (kᵀ v)`, and it computes the
  1024 × 1024 matrix `kᵀ v` block by block over the rows, scales it by `1 / 32` (the constant `0.03125`, which is
  exactly `1 / 32`), and multiplies `q` by it. At the ideal instance every change of float format is the identity, so
  the two programs are the two arrangements of one double sum, equal as soon as every entry is a real number — which
  the precondition (every input entry finite) gives, a linear layer of real numbers being real.

  The frames: the idealized kernel's and the word-level kernel's run through their three regions to the end from any
  memory, leaving the argument arrays as launched (nothing in either program writes one); the reference's frame is
  its run with the result dropped. The idealization rewrote no operation, so there is nothing to preserve.
-/
import proofs.«131325_j79113297592362_1_alg».proof.Defs
import proofs.«131325_j79113297592362_1_alg».proof.Proof.Gen.Kernel
import proofs.«131325_j79113297592362_1_alg».proof.Proof.Gen.KernelIdeal
import proofs.«131325_j79113297592362_1_alg».proof.Proof.Gen.ReferenceIdeal
import proofs.«131325_j79113297592362_1_alg».proof.Proof.Gen.Pre_finite_inputs
import proofs.«131325_j79113297592362_1_alg».proof.Proof.Gen.ReferenceIdeal.Run
import proofs.«131325_j79113297592362_1_alg».proof.Proof.Gen.ReferenceIdeal.Read
import proofs.«131325_j79113297592362_1_alg».proof.Proof.Frame.Kernel.Run
import proofs.«131325_j79113297592362_1_alg».proof.Proof.Frame.KernelIdeal.Run
import proofs.«131325_j79113297592362_1_alg».proof.Proof.Chain
import proofs.«131325_j79113297592362_1_alg».proof.Proof.RefValue
import proofs.«131325_j79113297592362_1_alg».proof.Proof.Algebra
import proofs.«131325_j79113297592362_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem
open Cert.Spec

/-- The word-level kernel runs to the end and leaves its arguments as launched. -/
theorem frame_kernel [Cert.Kernel.Facts] [Cert.Pre_finite_inputs.Facts] : Cert.frame_Kernel :=
  fun m ρ _ => Cert.Kernel.Hand.frame_all m ρ

/-- So does the idealized kernel. -/
theorem frame_kernelIdeal [Cert.KernelIdeal.Facts] [Cert.Pre_finite_inputs.Facts] : Cert.frame_KernelIdeal :=
  fun m ρ _ => Cert.KernelIdeal.Hand.frame_all m ρ

/-- The reference is host operations only: its frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The common result on core `c`, from the idealized kernel's argument arrays: the reference's arrangement. -/
def result [Cert.KernelIdeal.Facts] (m : (ℓ : Loc Cert.KernelIdeal.nD Cert.KernelIdeal.τ Cert.KernelIdeal.sig) → Buf (Elt Ideal) ℓ)
    (c : Dev Cert.KernelIdeal.nD) : XS.Idx → EReal := fun i =>
  scoresFirst (lin (Cert.KernelIdeal.Val.argX m c) (Cert.KernelIdeal.Val.argWq m c) (Cert.KernelIdeal.Val.argBq m c))
    (lin (Cert.KernelIdeal.Val.argX m c) (Cert.KernelIdeal.Val.argWk m c) (Cert.KernelIdeal.Val.argBk m c))
    (lin (Cert.KernelIdeal.Val.argX m c) (Cert.KernelIdeal.Val.argWv m c) (Cert.KernelIdeal.Val.argBv m c)) (i 0) (i 1)

/-- Under the precondition the idealized kernel's result array ends at `result`: its entries are the other arrangement of
    the same double sum, and all entries of the three layers are real. -/
theorem kernel_result [Cert.KernelIdeal.Facts] [Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.lit Cert.KernelIdeal.S8192x1024 .f32 ((Cert.KernelIdeal.Hand.dat2 (Cert.KernelIdeal.Hand.V3 m ρ) c).arrAt 2 Cert.KernelIdeal.cfg2.N) = result m c := by
  obtain ⟨h0, h1, h2, h3, h4, h5, h6⟩ := Cert.Finite.inputs_real m hpre c
  funext i
  rw [eq_ix2 i]
  refine (Cert.KernelIdeal.Val.result_at m ρ c (i 0) (i 1)).trans ?_
  exact Cert.Algebra.arrangements_agree _ _ _
    (fun n j => Cert.Algebra.lin_isReal _ _ _ h0 h1 h2 n j)
    (fun n j => Cert.Algebra.lin_isReal _ _ _ h0 h3 h4 n j)
    (fun n j => Cert.Algebra.lin_isReal _ _ _ h0 h5 h6 n j) (i 0) (i 1)

/-- The reference's result array, from ITS argument arrays, is the same function of them. -/
theorem reference_result (x0 : FVec Ideal Cert.ReferenceIdeal.S8192x1024 .f32) (x1 : FVec Ideal Cert.ReferenceIdeal.S1024x1024 .f32)
    (x2 : FVec Ideal Cert.ReferenceIdeal.S1024 .f32) (x3 : FVec Ideal Cert.ReferenceIdeal.S1024x1024 .f32) (x4 : FVec Ideal Cert.ReferenceIdeal.S1024 .f32)
    (x5 : FVec Ideal Cert.ReferenceIdeal.S1024x1024 .f32) (x6 : FVec Ideal Cert.ReferenceIdeal.S1024 .f32) :
    Cert.ReferenceIdeal.Read.val_main_v20 (F := Ideal) x0 x1 x2 x3 x4 x5 x6
      = fun i => scoresFirst (lin x0 x1 x2) (lin x0 x3 x4) (lin x0 x5 x6) (i 0) (i 1) := by
  funext i
  rw [eq_ix2 i]
  exact Cert.RefValue.reference_at x0 x1 x2 x3 x4 x5 x6 (i 0) (i 1)

/-- From memories agreeing on the arguments both idealized programs run to the end with equal results. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => result m c, ?_, ?_⟩
  · exact (θ_run Cert.KernelIdeal.defs _ _).mono
      (fun _ h c => ⟨(h c).1.trans (kernel_result m ρ hpre c), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [e0, e1, e2, e3, e4, e5, e6]
    exact reference_result _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
